-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S10000x64 : Shape := ⟨2, ![10000, 64]⟩
abbrev S800000x64 : Shape := ⟨2, ![800000, 64]⟩
abbrev S50000x1 : Shape := ⟨2, ![50000, 1]⟩
abbrev S1x64 : Shape := ⟨2, ![1, 64]⟩
abbrev S10000x1 : Shape := ⟨2, ![10000, 1]⟩
abbrev S1x1 : Shape := ⟨2, ![1, 1]⟩

abbrev nBuf : Space → Nat
  | .hbm => 105
  | .vmem => 42
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S50000, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x1, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x1, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S800000x1, .f32⟩
  | .hbm, ⟨74, _⟩ => ⟨S800000x64, .f32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S50000x1, .f32⟩
  | .hbm, ⟨81, _⟩ => ⟨S1x64, .f32⟩
  | .hbm, ⟨82, _⟩ => ⟨S50000x64, .f32⟩
  | .hbm, ⟨83, _⟩ => ⟨S50000x1, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x1, .f32⟩
  | .hbm, ⟨93, _⟩ => ⟨S800000x1, .f32⟩
  | .hbm, ⟨94, _⟩ => ⟨S800000x1, .f32⟩
  | .hbm, ⟨95, _⟩ => ⟨S_, .f32⟩
  | .hbm, ⟨96, _⟩ => ⟨S50000x1, .f32⟩
  | .hbm, ⟨97, _⟩ => ⟨S800000x1, .i32⟩
  | .hbm, ⟨98, _⟩ => ⟨S50000x1, .f32⟩
  | .hbm, ⟨99, _⟩ => ⟨S50000x1, .f32⟩
  | .hbm, ⟨100, _⟩ => ⟨S1x1, .f32⟩
  | .hbm, ⟨101, _⟩ => ⟨S50000x1, .f32⟩
  | .hbm, ⟨102, _⟩ => ⟨S_, .f32⟩
  | .hbm, ⟨103, _⟩ => ⟨S50000x1, .f32⟩
  | .hbm, ⟨104, _⟩ => ⟨S50000x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x1, .f32⟩
  | .local _ .vmem, ⟨31, _⟩ => ⟨S10000x1, .f32⟩
  | .local _ .vmem, ⟨32, _⟩ => ⟨S10000x1, .f32⟩
  | .local _ .vmem, ⟨33, _⟩ => ⟨S10000x1, .f32⟩
  | .local _ .vmem, ⟨34, _⟩ => ⟨S10000x1, .f32⟩
  | .local _ .vmem, ⟨35, _⟩ => ⟨S10000x1, .f32⟩
  | .local _ .vmem, ⟨36, _⟩ => ⟨S10000x1, .f32⟩
  | .local _ .vmem, ⟨37, _⟩ => ⟨S10000x1, .f32⟩
  | .local _ .vmem, ⟨38, _⟩ => ⟨S10000x1, .f32⟩
  | .local _ .vmem, ⟨39, _⟩ => ⟨S1x1, .f32⟩
  | .local _ .vmem, ⟨40, _⟩ => ⟨S10000x1, .f32⟩
  | .local _ .vmem, ⟨41, _⟩ => ⟨S10000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  bcast_S_S50000x1 : S_.BroadcastsInDim S50000x1 (![] : Fin 0 → Fin S50000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x1_S10000x1_1_0_0_1_n_n_wf : DotDims.WF S10000x64 S64x1 S10000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .f32 = 32 ∨ (Rect.block (s := S50000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S50000x1.size a
  hwx4_2 : ∀ i : grid4.Coords, EltTy.bits .f32 = 32 ∨ (Rect.block (s := S50000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S50000x1.size a
  hwx5_0 : ∀ i : grid5.Coords, EltTy.bits .f32 = 32 ∨ (Rect.block (s := S50000x1) S10000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S50000x1.size a
  hwx5_1 : ∀ i : grid5.Coords, EltTy.bits .f32 = 32 ∨ (Rect.block (s := S50000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S50000x1.size a
  hwx5_2 : ∀ i : grid5.Coords, EltTy.bits .f32 = 32 ∨ (Rect.block (s := S50000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x1.size a ≤ S50000x1.size a
  hwx5_4 : ∀ i : grid5.Coords, EltTy.bits .f32 = 32 ∨ (Rect.block (s := S50000x1) S10000x1.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S10000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S50000, .f32⟩
  | 43 => ⟨S50000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S800000x1, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x1, .f32⟩
  | 61 => ⟨S50000x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S800000x1, .f32⟩
  | 86 => ⟨S800000x64, .f32⟩
  | 87 => ⟨S800000x64, .f32⟩
  | 88 => ⟨S_, .f32⟩
  | 89 => ⟨S50000x64, .f32⟩
  | 90 => ⟨S800000x1, .i32⟩
  | 91 => ⟨S50000x64, .f32⟩
  | 92 => ⟨S50000x1, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S50000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x1, .f32⟩
  | 117 => ⟨S800000x1, .f32⟩
  | 118 => ⟨S800000x1, .f32⟩
  | 119 => ⟨S_, .f32⟩
  | 120 => ⟨S50000x1, .f32⟩
  | 121 => ⟨S800000x1, .i32⟩
  | 122 => ⟨S50000x1, .f32⟩
  | 123 => ⟨S50000x1, .f32⟩
  | 124 => ⟨S50000x1, .f32⟩
  | 125 => ⟨S50000x1, .f32⟩
  | 126 => ⟨S1x1, .f32⟩
  | 127 => ⟨S50000x1, .f32⟩
  | _ => ⟨S50000x64, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x1, .f32⟩
  | 5 => ⟨S50000x1, .f32⟩
  | 6 => ⟨S_, .f32⟩
  | 7 => ⟨S50000x1, .f32⟩
  | 8 => ⟨S50000x1, .f32⟩
  | 9 => ⟨S_, .f32⟩
  | 10 => ⟨S50000x1, .f32⟩
  | 11 => ⟨S50000x1, .f32⟩
  | 12 => ⟨S_, .f32⟩
  | 13 => ⟨S50000x1, .f32⟩
  | 14 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_15 : Ref sig .tc := ⟨.hbm, 108, rfl⟩
abbrev main_v82 : Ref sig .tc := ⟨.hbm, 109, rfl⟩
abbrev main_v83 : Ref sig .tc := ⟨.hbm, 110, rfl⟩
abbrev main_c_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_18 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_19 : Ref sig .tc := ⟨.hbm, 134, rfl⟩
abbrev main_v104 : Ref sig .tc := ⟨.hbm, 135, rfl⟩
abbrev main_v105 : Ref sig .tc := ⟨.hbm, 136, rfl⟩
abbrev main_cst_20 : Ref sig .tc := ⟨.hbm, 137, rfl⟩
abbrev main_v106 : Ref sig .tc := ⟨.hbm, 138, rfl⟩
abbrev main_v107 : Ref sig .tc := ⟨.hbm, 139, rfl⟩
abbrev main_cst_21 : Ref sig .tc := ⟨.hbm, 140, rfl⟩
abbrev main_v108 : Ref sig .tc := ⟨.hbm, 141, rfl⟩
abbrev main_v109 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KEntry.lean ====
import proofs.«170177_j25752623907304_1_alg».proof.Proof.Gen.KernelIdeal.Frame
import proofs.«170177_j25752623907304_1_alg».proof.Proof.Gen.ReferenceIdeal.Read
import Idealize.ShloMosaic.Lib.StableHlo.Run
/-!
  The kernel program's buffers at the boundaries between its host stretches and its six kernel regions, read as values.

  Before the first region the host computes, from the edge list alone, the four edge-side quantities every layer uses:
  the source and destination node of each edge, the per-edge normalisation coefficient (the product of the inverse
  square roots of the two end nodes' degrees) and the per-node self-loop coefficient (the square of a node's inverse
  square-root degree). The reference computes the same four by the same operations, so each is the reference's stage of
  the same name. Neither a later host stretch nor a region writes them or the weight and bias arguments, so they are
  found unchanged at every later boundary.
-/

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Argument 0 as launched. -/
abbrev arg0 : Buf (Elt Ideal) ((c : Thread nD τ).loc main_arg0) := m ((c : Thread nD τ).loc main_arg0)
/-- Argument 1 as launched. -/
abbrev arg1 : Buf (Elt Ideal) ((c : Thread nD τ).loc main_arg1) := m ((c : Thread nD τ).loc main_arg1)
/-- Argument 3 as launched. -/
abbrev arg3 : Buf (Elt Ideal) ((c : Thread nD τ).loc main_arg3) := m ((c : Thread nD τ).loc main_arg3)
/-- Argument 4 as launched. -/
abbrev arg4 : Buf (Elt Ideal) ((c : Thread nD τ).loc main_arg4) := m ((c : Thread nD τ).loc main_arg4)
/-- Argument 5 as launched. -/
abbrev arg5 : Buf (Elt Ideal) ((c : Thread nD τ).loc main_arg5) := m ((c : Thread nD τ).loc main_arg5)
/-- Argument 6 as launched. -/
abbrev arg6 : Buf (Elt Ideal) ((c : Thread nD τ).loc main_arg6) := m ((c : Thread nD τ).loc main_arg6)
/-- Argument 7 as launched. -/
abbrev arg7 : Buf (Elt Ideal) ((c : Thread nD τ).loc main_arg7) := m ((c : Thread nD τ).loc main_arg7)
/-- Argument 8 as launched. -/
abbrev arg8 : Buf (Elt Ideal) ((c : Thread nD τ).loc main_arg8) := m ((c : Thread nD τ).loc main_arg8)

/-! ## The arguments when the first region is entered: the first host stretch writes none of them -/

theorem arg0_at1 : W1 m ρ c (Proc.devRef .tc main_arg0) = arg0 m c := by
  show StableHlo.after hostOps0 (W0 m ρ c) (Proc.devRef .tc main_arg0) = _
  after_results_simp

theorem arg3_at1 : W1 m ρ c (Proc.devRef .tc main_arg3) = arg3 m c := by
  show StableHlo.after hostOps0 (W0 m ρ c) (Proc.devRef .tc main_arg3) = _
  after_results_simp

theorem arg4_at1 : W1 m ρ c (Proc.devRef .tc main_arg4) = arg4 m c := by
  show StableHlo.after hostOps0 (W0 m ρ c) (Proc.devRef .tc main_arg4) = _
  after_results_simp

theorem arg5_at1 : W1 m ρ c (Proc.devRef .tc main_arg5) = arg5 m c := by
  show StableHlo.after hostOps0 (W0 m ρ c) (Proc.devRef .tc main_arg5) = _
  after_results_simp

theorem arg6_at1 : W1 m ρ c (Proc.devRef .tc main_arg6) = arg6 m c := by
  show StableHlo.after hostOps0 (W0 m ρ c) (Proc.devRef .tc main_arg6) = _
  after_results_simp

theorem arg7_at1 : W1 m ρ c (Proc.devRef .tc main_arg7) = arg7 m c := by
  show StableHlo.after hostOps0 (W0 m ρ c) (Proc.devRef .tc main_arg7) = _
  after_results_simp

theorem arg8_at1 : W1 m ρ c (Proc.devRef .tc main_arg8) = arg8 m c := by
  show StableHlo.after hostOps0 (W0 m ρ c) (Proc.devRef .tc main_arg8) = _
  after_results_simp

/-! ## The four edge-side quantities when the first region is entered -/

/-- The source node of every edge. -/
theorem src_at1 : W1 m ρ c (Proc.devRef .tc main_v1) = Cert.ReferenceIdeal.Read.val_main_v1 (F := Ideal) (arg1 m c) := by
  show StableHlo.after hostOps0 (W0 m ρ c) (Proc.devRef .tc main_v1) = _
  after_results_simp
  rfl

/-- The destination node of every edge. -/
theorem dst_at1 : W1 m ρ c (Proc.devRef .tc main_v3) = Cert.ReferenceIdeal.Read.val_main_v3 (F := Ideal) (arg1 m c) := by
  show StableHlo.after hostOps0 (W0 m ρ c) (Proc.devRef .tc main_v3) = _
  after_results_simp
  rfl

/-- The per-edge normalisation coefficient. -/
theorem norm_at1 : W1 m ρ c (Proc.devRef .tc main_v25) = Cert.ReferenceIdeal.Read.val_main_v25 (F := Ideal) (arg1 m c) := by
  show StableHlo.after hostOps0 (W0 m ρ c) (Proc.devRef .tc main_v25) = _
  after_results_simp
  rfl

/-- The per-node self-loop coefficient. -/
theorem self_at1 : W1 m ρ c (Proc.devRef .tc main_v26) = Cert.ReferenceIdeal.Read.val_main_v26 (F := Ideal) (arg1 m c) := by
  show StableHlo.after hostOps0 (W0 m ρ c) (Proc.devRef .tc main_v26) = _
  after_results_simp
  rfl

/-! ## A buffer that nothing up to a boundary writes is found there as it was when the first region was entered

  Each lemma takes, per region passed, that the buffer is none of the region's arrays, and, per host stretch passed,
  that the stretch leaves the buffer as it was. -/

section Kept
variable (b : Ref sig .tc)

theorem kept2 (r0 : ∀ w, Pipeline.arrRef spec0 w ≠ b) :
    W2 m ρ c (Proc.devRef .tc b) = W1 m ρ c (Proc.devRef .tc b) := W2_of_ne m ρ c b r0

theorem kept3 (r0 : ∀ w, Pipeline.arrRef spec0 w ≠ b)
    (s1 : StableHlo.after hostOps1 (W2 m ρ c) (Proc.devRef .tc b) = W2 m ρ c (Proc.devRef .tc b)) :
    W3 m ρ c (Proc.devRef .tc b) = W1 m ρ c (Proc.devRef .tc b) := s1.trans (kept2 m ρ c b r0)

theorem kept4 (r0 : ∀ w, Pipeline.arrRef spec0 w ≠ b)
    (s1 : StableHlo.after hostOps1 (W2 m ρ c) (Proc.devRef .tc b) = W2 m ρ c (Proc.devRef .tc b))
    (r1 : ∀ w, Pipeline.arrRef spec1 w ≠ b) :
    W4 m ρ c (Proc.devRef .tc b) = W1 m ρ c (Proc.devRef .tc b) := (W4_of_ne m ρ c b r1).trans (kept3 m ρ c b r0 s1)

theorem kept5 (r0 : ∀ w, Pipeline.arrRef spec0 w ≠ b)
    (s1 : StableHlo.after hostOps1 (W2 m ρ c) (Proc.devRef .tc b) = W2 m ρ c (Proc.devRef .tc b))
    (r1 : ∀ w, Pipeline.arrRef spec1 w ≠ b) (r2 : ∀ w, Pipeline.arrRef spec2 w ≠ b) :
    W5 m ρ c (Proc.devRef .tc b) = W1 m ρ c (Proc.devRef .tc b) := (W5_of_ne m ρ c b r2).trans (kept4 m ρ c b r0 s1 r1)

theorem kept6 (r0 : ∀ w, Pipeline.arrRef spec0 w ≠ b)
    (s1 : StableHlo.after hostOps1 (W2 m ρ c) (Proc.devRef .tc b) = W2 m ρ c (Proc.devRef .tc b))
    (r1 : ∀ w, Pipeline.arrRef spec1 w ≠ b) (r2 : ∀ w, Pipeline.arrRef spec2 w ≠ b)
    (s3 : StableHlo.after hostOps3 (W5 m ρ c) (Proc.devRef .tc b) = W5 m ρ c (Proc.devRef .tc b)) :
    W6 m ρ c (Proc.devRef .tc b) = W1 m ρ c (Proc.devRef .tc b) := s3.trans (kept5 m ρ c b r0 s1 r1 r2)

theorem kept7 (r0 : ∀ w, Pipeline.arrRef spec0 w ≠ b)
    (s1 : StableHlo.after hostOps1 (W2 m ρ c) (Proc.devRef .tc b) = W2 m ρ c (Proc.devRef .tc b))
    (r1 : ∀ w, Pipeline.arrRef spec1 w ≠ b) (r2 : ∀ w, Pipeline.arrRef spec2 w ≠ b)
    (s3 : StableHlo.after hostOps3 (W5 m ρ c) (Proc.devRef .tc b) = W5 m ρ c (Proc.devRef .tc b))
    (r3 : ∀ w, Pipeline.arrRef spec3 w ≠ b) :
    W7 m ρ c (Proc.devRef .tc b) = W1 m ρ c (Proc.devRef .tc b) :=
  (W7_of_ne m ρ c b r3).trans (kept6 m ρ c b r0 s1 r1 r2 s3)

theorem kept8 (r0 : ∀ w, Pipeline.arrRef spec0 w ≠ b)
    (s1 : StableHlo.after hostOps1 (W2 m ρ c) (Proc.devRef .tc b) = W2 m ρ c (Proc.devRef .tc b))
    (r1 : ∀ w, Pipeline.arrRef spec1 w ≠ b) (r2 : ∀ w, Pipeline.arrRef spec2 w ≠ b)
    (s3 : StableHlo.after hostOps3 (W5 m ρ c) (Proc.devRef .tc b) = W5 m ρ c (Proc.devRef .tc b))
    (r3 : ∀ w, Pipeline.arrRef spec3 w ≠ b) (r4 : ∀ w, Pipeline.arrRef spec4 w ≠ b) :
    W8 m ρ c (Proc.devRef .tc b) = W1 m ρ c (Proc.devRef .tc b) :=
  (W8_of_ne m ρ c b r4).trans (kept7 m ρ c b r0 s1 r1 r2 s3 r3)

end Kept

end Cert.KernelIdeal.Fold

end
-- ==== Proof.Spec.lean ====
import Idealize.ShloMosaic.PureOps.Ideal
import Idealize.ShloMosaic.Lib.ValueIdx

/-!
  The two per-node computations of a graph-convolution layer, as functions of whole arrays over the extended reals.

  * `dense A W`: entry (p, q) is the sum over k of A(p, k) · W(k, q) — the layer's linear map applied to every node's
    feature row.
  * `update agg h s b`: entry (p, q) is the logistic function of agg(p, q) + s(p) · h(p, q) + b(q) — the aggregated
    neighbour messages plus the node's own (self-loop) term, scaled by its normalisation coefficient, plus the bias.
    The coefficient is given as a one-column array and the bias as a one-row array.
-/

open scoped BigOperators

noncomputable section

namespace Cert.GcnSpec

open Idealize.ShloMosaic Idealize.ShloMosaic.ValueIdx

/-- The linear map of a layer on every node: entry (p, q) is the sum over k of A(p, k) · W(k, q). -/
def dense {M K N : Nat} (A : (⟨2, ![M, K]⟩ : Shape).Idx → EReal) (W : (⟨2, ![K, N]⟩ : Shape).Idx → EReal) :
    (⟨2, ![M, N]⟩ : Shape).Idx → EReal :=
  fun i => ∑ k : Fin K, A (ix2 (i 0) k) * W (ix2 k (i 1))

theorem dense_apply {M K N : Nat} (A : (⟨2, ![M, K]⟩ : Shape).Idx → EReal) (W : (⟨2, ![K, N]⟩ : Shape).Idx → EReal)
    (p : Fin M) (q : Fin N) : dense A W (ix2 p q) = ∑ k : Fin K, A (ix2 p k) * W (ix2 k q) := rfl

/-- The node update of a layer: entry (p, q) is logistic (agg(p, q) + s(p, 0) · h(p, q) + b(0, q)). -/
def update {M N : Nat} (agg h : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun i => Ideal.logistic ((agg i + s (ix2 (i 0) 0) * h i) + b (ix2 0 (i 1)))

theorem update_apply {M N : Nat} (agg h : (⟨2, ![M, N]⟩ : Shape).Idx → EReal) (s : (⟨2, ![M, 1]⟩ : Shape).Idx → EReal)
    (b : (⟨2, ![1, N]⟩ : Shape).Idx → EReal) (p : Fin M) (q : Fin N) :
    update agg h s b (ix2 p q) = Ideal.logistic ((agg (ix2 p q) + s (ix2 p 0) * h (ix2 p q)) + b (ix2 0 q)) := rfl

end Cert.GcnSpec

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.RegionDense0.lean ====
import proofs.«170177_j25752623907304_1_alg».proof.Proof.Gen.KernelIdeal.Frame
import proofs.«170177_j25752623907304_1_alg».proof.Proof.Spec
import proofs.«170177_j25752623907304_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The offset of a rectangle that starts at the origin, as the constant-zero function. -/
theorem dense0_origin : (![0, 0] : Fin 2 → Nat) = fun _ => 0 := funext fun a => by fin_cases a <;> rfl

/-- One grid point's product at an entry: a change of float format does nothing to an extended real, and the matrix
    product into the zero accumulator at (r, q) is the sum over k of x0(r, k) · x1(k, q). -/
theorem dense0_point_apply (x0 : Vec Ideal S10000x64 .f32) (x1 : Vec Ideal S64x64 .f32) (r : Fin 10000) (q : Fin 64) :
    k0_pay1 (F := Ideal) x0 x1 (ix2 r q) = ∑ k : Fin 64, x0 (ix2 r k) * x1 (ix2 k q) := by
  unfold k0_pay1
  exact Cert.Lib.PlainDot.matmul_zero_apply dot_S10000x64_S64x64_S10000x64_1_0_0_1_n_n rfl rfl rfl rfl rfl rfl none
    (truncf (F := Ideal) .bf16 x0 bitsLt_bf16_f32) (truncf (F := Ideal) .bf16 x1 bitsLt_bf16_f32) r q

/-- The grid has five points. -/
theorem dense0_point_lt (t : Fin cfg0.N) : t.val < 5 := lt_of_lt_of_eq t.isLt N_0

/-- Row r of block t is a row of the whole array. -/
theorem dense0_row_lt (t : Fin cfg0.N) (r : Fin 10000) : 10000 * t.val + r.val < 50000 := by
  have ht := dense0_point_lt t
  have hr := r.isLt
  omega

/-- The index maps, decided over the five grid points: the input rows and the output move with the point along the
    row axis and stay at column block 0; the weight is one block. -/
theorem dense0_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
/- The buffer contents when the region is entered: every lemma below holds for any such contents. -/
variable (V : (c : Dev nD) → (b : Ref sig .tc) → Buf (Elt Ideal) ((c : Thread nD τ).loc b))

/-- The input block of point t, read at (r, k), is the node-feature array at row 10000·t + r, column k. -/
theorem dense0_rows_block (c : Dev nD) (t : Fin cfg0.N) (r : Fin 10000) (k : Fin 64) :
    (iblk0 (F := Ideal) V c 0 t : Vec Ideal S10000x64 .f32) (ix2 r k)
      = V c main_arg0 (ix2 (⟨10000 * t.val + r.val, dense0_row_lt t r⟩ : Fin 50000) k) := by
  show V c main_arg0 (((cfg0.win 0).blk t).view.emb (ix2 r k)) = _
  refine congrArg (V c main_arg0) ?_
  obtain ⟨e0, e1, -, -, -, -⟩ := dense0_index_maps t
  funext a; apply Fin.ext
  match a with
  | ⟨0, _⟩ => show win0_0.index t (0 : Fin 2) * 10000 + 1 * r.val = 10000 * t.val + r.val; omega
  | ⟨1, _⟩ => show win0_0.index t (1 : Fin 2) * 64 + 1 * k.val = k.val; omega

/-- The weight block of every point is the whole weight array. -/
theorem dense0_weight_block (c : Dev nD) (t : Fin cfg0.N) (k : Fin 64) (q : Fin 64) :
    (iblk0 (F := Ideal) V c 1 t : Vec Ideal S64x64 .f32) (ix2 k q) = V c main_arg3 (ix2 k q) := by
  show V c main_arg3 (((cfg0.win 1).blk t).view.emb (ix2 k q)) = _
  refine congrArg (V c main_arg3) ?_
  obtain ⟨-, -, e2, e3, -, -⟩ := dense0_index_maps t
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- Entry (r, q) of the output block of point t sits at row 10000·t + r, column q of the output array. -/
theorem dense0_out_position (t : Fin cfg0.N) (r : Fin 10000) (q : Fin 64) :
    ((cfg0.win 2).blk t).view.emb (ix2 r q) = ix2 (⟨10000 * t.val + r.val, dense0_row_lt t r⟩ : Fin 50000) q := by
  obtain ⟨-, -, -, -, e4, e5⟩ := dense0_index_maps t
  funext a; apply Fin.ext
  match a with
  | ⟨0, _⟩ => show win0_2.index t (0 : Fin 2) * 10000 + 1 * r.val = 10000 * t.val + r.val; omega
  | ⟨1, _⟩ => show win0_2.index t (1 : Fin 2) * 64 + 1 * q.val = q.val; omega

/-- What point t computes, entry by entry, is the product of the node features with the weight matrix at the entry's
    place in the output array. -/
theorem dense0_point_eq (c : Dev nD) (t : Fin cfg0.N) (j : S10000x64.Idx) :
    k0_pay1 (F := Ideal) (iblk0 V c 0 t) (iblk0 V c 1 t) j
      = GcnSpec.dense (V c main_arg0) (V c main_arg3) (((cfg0.win 2).blk t).view.emb j) := by
  obtain ⟨r, q, rfl⟩ : ∃ (r : Fin 10000) (q : Fin 64), j = ix2 r q := ⟨j 0, j 1, eq_ix2 j⟩
  rw [dense0_point_apply, dense0_out_position, GcnSpec.dense_apply]
  refine Finset.sum_congr rfl fun k _ => ?_
  rw [dense0_rows_block, dense0_weight_block]

/-- What point t writes back is block t of the product. -/
theorem dense0_flushed (c : Dev nD) (t : Fin cfg0.N) :
    (dat0 (F := Ideal) V c).flushed 2 t
      = ((cfg0.win 2).blk t).view.read (Elt Ideal) (GcnSpec.dense (V c main_arg0) (V c main_arg3)) := by
  show (cfg0.win 2).cut (grid0.coords t) ((dat0 (F := Ideal) V c).after 2 t) = _
  rw [after0_2]
  unfold out0_2
  rw [View.canon_unit_zero dense0_origin]
  simp only [View.ld_unit_zero (S := S10000x64) dense0_origin, View.ld_unit_zero (S := S64x64) dense0_origin]
  funext j
  exact dense0_point_eq V c t j

end

/-- An index of the output array is in point t's block iff each coordinate is in the block's range on its axis. -/
theorem dense0_mem_block (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v27).slice (win0_2.rect t)).set ↔ _
  rw [View.set_slice_whole, Rect.mem_set_unit]
  exact Iff.rfl

/-- Every index of the output array is in the block of the point its row falls in: row p lies in block p / 10000. -/
theorem dense0_cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 5 := N_0
  let t : Fin cfg0.N := ⟨(i 0).val / 10000, by rw [hN]; omega⟩
  have htv : t.val = (i 0).val / 10000 := rfl
  obtain ⟨-, -, -, -, e4, e5⟩ := dense0_index_maps t
  refine ⟨t, flush0_2 t, ?_⟩
  rw [dense0_mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/- The buffer contents when the region is entered: every lemma below holds for any such contents. -/
variable (V : (c : Dev nD) → (b : Ref sig .tc) → Buf (Elt Ideal) ((c : Thread nD τ).loc b))

/-- After the first layer's linear kernel has run over all five row blocks, its output array holds the node features times the first weight matrix. -/
theorem dense0 (c : Dev nD) :
    (dat0 (F := Ideal) V c).arrAt 2 cfg0.N = GcnSpec.dense (V c main_arg0) (V c main_arg3) :=
  (dat0 (F := Ideal) V c).arrAt_eq_of_cover 2 (GcnSpec.dense (V c main_arg0) (V c main_arg3))
    (fun t _ => dense0_flushed V c t) dense0_cover

end Cert.KernelIdeal.RegionValue

end
-- ==== Proof.RegionUpdate1.lean ====
import proofs.«170177_j25752623907304_1_alg».proof.Proof.Gen.KernelIdeal.Frame
import proofs.«170177_j25752623907304_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/- The buffer contents when the region is entered: every lemma below holds for any such contents. -/
variable (V : (c : Dev nD) → (b : Ref sig .tc) → Buf (Elt Ideal) ((c : Thread nD τ).loc b))

/-- Both block offsets of the body's accesses are zero. -/
theorem offsets_zero1 : (![0, 0] : Fin 2 → Nat) = fun _ => 0 := funext fun a => by fin_cases a <;> rfl

/-- A one-column array broadcast along the columns reads, at (p, q), the operand's entry in row p. -/
theorem column_broadcast1 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The value the body stores, read at row r and column q of the block: the logistic of the aggregated message plus
    the row's coefficient times the linear map's output, plus the column's bias. -/
theorem combine1_apply (x0 : Vec Ideal S10000x64 .f32) (x2 : Vec Ideal S10000x1 .f32) (x4 : Vec Ideal S10000x64 .f32)
    (x9 : Vec Ideal S1x64 .f32) (r : Fin 10000) (q : Fin 64) :
    k1_pay1 x0 x2 x4 x9 (ix2 r q)
      = Ideal.logistic ((x0 (ix2 r q) + x2 (ix2 r (0 : Fin 1)) * x4 (ix2 r q)) + x9 (ix2 (0 : Fin 1) q)) := by
  unfold k1_pay1
  simp only [shapeCast_self]
  show Ideal.logistic ((x0 (ix2 r q) + broadcastTo S10000x64 x2 broadcasts_S10000x1_S10000x64 (ix2 r q) * x4 (ix2 r q))
      + broadcastTo S10000x64 x9 broadcasts_S1x64_S10000x64 (ix2 r q)) = _
  rw [column_broadcast1, broadcastTo_1b_ab_apply]

/-- The index maps, decided over the five grid points: the three row-blocked inputs and the output sit at block row t,
    block column 0; the bias window stays at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of block t is row 10000·t + r of the array. -/
theorem row_lt1 (t : Fin cfg1.N) (r : Fin 10000) : 10000 * t.val + r.val < 50000 := by
  have ht : t.val < 5 := lt_of_lt_of_eq t.isLt N_1
  have hr := r.isLt
  omega

/-- The aggregated messages' block at point t, read at (r, q). -/
theorem agg_block1 (c : Dev nD) (t : Fin cfg1.N) (r : Fin 10000) (q : Fin 64) :
    (iblk1 V c 0 t : Vec Ideal S10000x64 .f32) (ix2 r q) = V c main_v40 (ix2 ⟨10000 * t.val + r.val, row_lt1 t r⟩ q) := by
  obtain ⟨e0, e1, -⟩ := block_index1 t
  show V c main_v40 (((cfg1.win 0).blk t).view.emb (ix2 r q)) = _
  refine congrArg (V c main_v40) (funext fun a => Fin.ext ?_)
  match a with
  | ⟨0, _⟩ => show win1_0.index t (0 : Fin 2) * 10000 + 1 * r.val = 10000 * t.val + r.val; omega
  | ⟨1, _⟩ => show win1_0.index t (1 : Fin 2) * 64 + 1 * q.val = q.val; omega

/-- The linear map's output block at point t, read at (r, q). -/
theorem lin_block1 (c : Dev nD) (t : Fin cfg1.N) (r : Fin 10000) (q : Fin 64) :
    (iblk1 V c 1 t : Vec Ideal S10000x64 .f32) (ix2 r q) = V c main_v27 (ix2 ⟨10000 * t.val + r.val, row_lt1 t r⟩ q) := by
  obtain ⟨-, -, e0, e1, -⟩ := block_index1 t
  show V c main_v27 (((cfg1.win 1).blk t).view.emb (ix2 r q)) = _
  refine congrArg (V c main_v27) (funext fun a => Fin.ext ?_)
  match a with
  | ⟨0, _⟩ => show win1_1.index t (0 : Fin 2) * 10000 + 1 * r.val = 10000 * t.val + r.val; omega
  | ⟨1, _⟩ => show win1_1.index t (1 : Fin 2) * 64 + 1 * q.val = q.val; omega

/-- The coefficient column's block at point t, read at (r, 0). -/
theorem coef_block1 (c : Dev nD) (t : Fin cfg1.N) (r : Fin 10000) :
    (iblk1 V c 2 t : Vec Ideal S10000x1 .f32) (ix2 r (0 : Fin 1)) = V c main_v41 (ix2 ⟨10000 * t.val + r.val, row_lt1 t r⟩ (0 : Fin 1)) := by
  obtain ⟨-, -, -, -, e0, e1, -⟩ := block_index1 t
  show V c main_v41 (((cfg1.win 2).blk t).view.emb (ix2 r (0 : Fin 1))) = _
  refine congrArg (V c main_v41) (funext fun a => Fin.ext ?_)
  match a with
  | ⟨0, _⟩ => show win1_2.index t (0 : Fin 2) * 10000 + 1 * r.val = 10000 * t.val + r.val; omega
  | ⟨1, _⟩ => show win1_2.index t (1 : Fin 2) * 1 + 1 * 0 = 0; omega

/-- The bias row's one block, read at (0, q): the same at every point. -/
theorem bias_block1 (c : Dev nD) (t : Fin cfg1.N) (q : Fin 64) :
    (iblk1 V c 3 t : Vec Ideal S1x64 .f32) (ix2 (0 : Fin 1) q) = V c main_v42 (ix2 (0 : Fin 1) q) := by
  obtain ⟨-, -, -, -, -, -, e0, e1, -⟩ := block_index1 t
  show V c main_v42 (((cfg1.win 3).blk t).view.emb (ix2 (0 : Fin 1) q)) = _
  refine congrArg (V c main_v42) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- Where the output's block at point t puts its entry (r, q) in the array. -/
theorem out_block_emb1 (t : Fin cfg1.N) (r : Fin 10000) (q : Fin 64) :
    ((cfg1.win 4).blk t).view.emb (ix2 r q) = (ix2 ⟨10000 * t.val + r.val, row_lt1 t r⟩ q : S50000x64.Idx) := by
  obtain ⟨-, -, -, -, -, -, -, -, e0, e1⟩ := block_index1 t
  refine funext fun a => Fin.ext ?_
  match a with
  | ⟨0, _⟩ => show win1_4.index t (0 : Fin 2) * 10000 + 1 * r.val = 10000 * t.val + r.val; omega
  | ⟨1, _⟩ => show win1_4.index t (1 : Fin 2) * 64 + 1 * q.val = q.val; omega

/-- What point t writes back is block t of the layer's node update of the four arrays as the region finds them. -/
theorem writeback1 (c : Dev nD) (t : Fin cfg1.N) :
    (dat1 (F := Ideal) V c).flushed 4 t = ((cfg1.win 4).blk t).view.read (Elt Ideal)
      (GcnSpec.update (V c main_v40) (V c main_v27) (V c main_v41) (V c main_v42)) := by
  show (cfg1.win 4).cut (grid1.coords t) ((dat1 V c).after 4 t) = _
  rw [after1_4]
  unfold out1_4
  rw [View.canon_unit_zero offsets_zero1]
  simp only [View.ld_unit_zero (S := S10000x64) offsets_zero1, View.ld_unit_zero (S := S10000x1) offsets_zero1,
    View.ld_unit_zero (S := S1x64) offsets_zero1]
  funext j
  obtain ⟨r, q, rfl⟩ : ∃ (r : Fin 10000) (q : Fin 64), j = ix2 r q := ⟨j 0, j 1, eq_ix2 j⟩
  show k1_pay1 (iblk1 V c 0 t) (iblk1 V c 2 t) (iblk1 V c 1 t) (iblk1 V c 3 t) (ix2 r q)
    = GcnSpec.update (V c main_v40) (V c main_v27) (V c main_v41) (V c main_v42) (((cfg1.win 4).blk t).view.emb (ix2 r q))
  rw [combine1_apply, out_block_emb1, GcnSpec.update_apply, agg_block1, lin_block1, coef_block1, bias_block1]

/-- An index of the array is in point t's block iff each coordinate is in the block's range on its axis. -/
theorem mem_out_block1 (t : Fin cfg1.N) (i : S50000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v43).slice (win1_4.rect t)).set ↔ _
  rw [View.set_slice_whole, Rect.mem_set_unit]
  exact Iff.rfl

/-- Every row lies in the block of its quotient by 10000: the five blocks fill the array. -/
theorem blocks_fill1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : (i 0).val / 10000 < cfg1.N := lt_of_lt_of_eq (by omega) N_1.symm
  refine ⟨⟨(i 0).val / 10000, hN⟩, flush1_4 _, ?_⟩
  obtain ⟨-, -, -, -, -, -, -, -, e0, e1⟩ := block_index1 ⟨(i 0).val / 10000, hN⟩
  rw [mem_out_block1]
  intro a
  match a with
  | ⟨0, _⟩ =>
    show win1_4.index ⟨(i 0).val / 10000, hN⟩ (0 : Fin 2) * 10000 ≤ (i 0).val
      ∧ (i 0).val < win1_4.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_4.index ⟨(i 0).val / 10000, hN⟩ (1 : Fin 2) * 64 ≤ (i 1).val
      ∧ (i 1).val < win1_4.index ⟨(i 0).val / 10000, hN⟩ (1 : Fin 2) * 64 + 64
    omega

/-- After the first layer's combine kernel has run over all five row blocks, its output array holds the logistic of the aggregated messages plus the self-loop term plus the bias. -/
theorem update1 (c : Dev nD) :
    (dat1 (F := Ideal) V c).arrAt 4 cfg1.N = GcnSpec.update (V c main_v40) (V c main_v27) (V c main_v41) (V c main_v42) :=
  (dat1 (F := Ideal) V c).arrAt_eq_of_cover 4 _ (fun t _ => writeback1 V c t) blocks_fill1

end Cert.KernelIdeal.RegionValue

end
-- ==== Proof.RefLayer.lean ====
import proofs.«170177_j25752623907304_1_alg».proof.ReferenceIdeal
import proofs.«170177_j25752623907304_1_alg».proof.Proof.Gen.ReferenceIdeal
import proofs.«170177_j25752623907304_1_alg».proof.Proof.Spec
import proofs.«170177_j25752623907304_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

/-!
  The reference's two per-node computations, as it spells them with whole-array host operations, are the
  specification's `dense` and `update`.

  * The host's plain matrix product of a [50000, 64] array with a [64, N] array is `dense`.
  * The host spells the logistic function as 1 / (1 + exp (-x)) and broadcasts the per-node coefficient s (one number per
    node) along the feature axis and the bias b (one number per feature) along the node axis; the specification's
    `update` takes the coefficient as a one-column array and the bias as a one-row array, which are reshapes of s and b.
    In the last layer the host also divides the pre-activation by the constant one, which changes nothing on the
    extended reals.
-/

open scoped BigOperators

noncomputable section

namespace Cert.ReferenceIdeal.Layer

open Cert.ReferenceIdeal Cert.ReferenceIdeal.Facts₀ Cert.ReferenceIdeal.Facts Idealize.ShloMosaic Idealize.ShloMosaic.ValueIdx

/-- The host's matrix product with a [64, 64] weight matrix is `dense`. -/
theorem dense_eq_dot64 (A : FVec Ideal S50000x64 .f32) (W : FVec Ideal S64x64 .f32) :
    GcnSpec.dense A W = Host.dotGeneral (F := Ideal) dot_S50000x64_S64x64_S50000x64_1_0_0_1_n_n none A W := by
  funext i
  obtain ⟨p, q, rfl⟩ : ∃ (p : Fin 50000) (q : Fin 64), i = ix2 p q := ⟨i 0, i 1, eq_ix2 i⟩
  rw [GcnSpec.dense_apply]
  exact (Cert.Lib.PlainDot.dotGeneral_apply dot_S50000x64_S64x64_S50000x64_1_0_0_1_n_n rfl rfl rfl rfl rfl rfl none
    .single A W p q).symm

/-- The host's matrix product with a [64, 1] weight column is `dense`. -/
theorem dense_eq_dot1 (A : FVec Ideal S50000x64 .f32) (W : FVec Ideal S64x1 .f32) :
    GcnSpec.dense A W = Host.dotGeneral (F := Ideal) dot_S50000x64_S64x1_S50000x1_1_0_0_1_n_n none A W := by
  funext i
  obtain ⟨p, q, rfl⟩ : ∃ (p : Fin 50000) (q : Fin 1), i = ix2 p q := ⟨i 0, i 1, eq_ix2 i⟩
  rw [GcnSpec.dense_apply]
  exact (Cert.Lib.PlainDot.dotGeneral_apply dot_S50000x64_S64x1_S50000x1_1_0_0_1_n_n rfl rfl rfl rfl rfl rfl none
    .single A W p q).symm

/-! ## The host's constant one, reshapes and broadcasts, read at one entry -/

/-- The scalar constant with the word 0x3F800000, broadcast to any shape, is the number one at every entry. -/
theorem one_apply {t : Shape} (hbc : S_.BroadcastsInDim t (![] : Fin 0 → Fin t.rank)) (i : t.Idx) :
    broadcastInDim t ![] hbc (constant (F := Ideal) S_ .f32 0x3F800000#32) i = 1 :=
  (broadcastInDim_apply _ hbc _ i ix0 (fun a => a.elim0)).trans ((constant_apply _ _).trans Ideal.ofBits_one_f32)

/-- The one-column reshape of the per-node coefficient reads, in row p, the coefficient of node p. -/
theorem column_apply (s : FVec Ideal S50000 .f32) (hs : S50000.ShapeCasts S50000x1) (p : Fin 50000) (z : Fin 1) :
    shapeCast S50000x1 s hs (ix2 p z) = s (ix1 p) :=
  shapeCast_apply s hs _ _ (by
    have hz : z.val = 0 := by omega
    rw [Shape.rowMajor_val_two, Shape.rowMajor_val_one]
    show p.val = p.val * 1 + z.val
    rw [hz, Nat.mul_one, Nat.add_zero])

/-- The host's broadcast of the per-node coefficient to one column reads, in row p, the coefficient of node p. -/
theorem columnBroadcast_apply (s : FVec Ideal S50000 .f32) (p : Fin 50000) (z : Fin 1) :
    broadcastInDim S50000x1 ![0] bcast_S50000_S50000x1_0 s (ix2 p z) = s (ix1 p) :=
  broadcastInDim_apply _ bcast_S50000_S50000x1_0 s (ix2 p z) (ix1 p) (fun a => match a with
    | ⟨0, _⟩ => by show p.val = if (50000 : Nat) = 1 then 0 else p.val; rw [if_neg (by decide)])

/-- The host's second broadcast, of that column along the 64 features, reads at (p, q) the coefficient of node p. -/
theorem featureBroadcast_apply (s : FVec Ideal S50000 .f32) (p : Fin 50000) (q : Fin 64) :
    broadcastInDim S50000x64 ![0, 1] bcast_S50000x1_S50000x64_0_1
      (broadcastInDim S50000x1 ![0] bcast_S50000_S50000x1_0 s) (ix2 p q) = s (ix1 p) :=
  (broadcastInDim_apply _ bcast_S50000x1_S50000x64_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans
  (columnBroadcast_apply s p 0)

/-- The host's broadcast of the 64 biases to one row and then along the nodes reads at (p, q) the bias of feature q. -/
theorem biasBroadcast64_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) :=
  (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

/-- The host's broadcast of the last layer's single bias to a [1, 1] array and then along the nodes reads that bias at
    every (p, q): the one feature index q can only be 0. -/
theorem biasBroadcast1_apply (b : FVec Ideal S1 .f32) (p : Fin 50000) (q : Fin 1) :
    broadcastInDim S50000x1 ![0, 1] bcast_S1x1_S50000x1_0_1 (broadcastInDim S1x1 ![1] bcast_S1_S1x1_1 b) (ix2 p q)
      = b (ix1 q) :=
  (broadcastInDim_apply _ bcast_S1x1_S50000x1_0_1 _ (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])).trans
  (broadcastInDim_apply _ bcast_S1_S1x1_1 b (ix2 (0 : Fin 1) (0 : Fin 1)) (ix1 q) (fun a => match a with
    | ⟨0, _⟩ => by
      show q.val = if (1 : Nat) = 1 then 0 else (0 : Fin 1).val
      rw [if_pos rfl]; omega))

/-- Dividing an extended real by one changes nothing, at the two infinities as well. -/
theorem div_one_eq (x : EReal) : Ideal.div x 1 = x := by
  rw [← EReal.coe_one, Ideal.div_coe one_ne_zero, one_div, inv_one, EReal.coe_one, mul_one]

/-- The host's node update of a 64-feature layer: 1 / (1 + exp (-((agg + s·h) + b))), with s broadcast along the
    features and b along the nodes. -/
def hostUpdate64 (agg h : FVec Ideal S50000x64 .f32) (s : FVec Ideal S50000 .f32) (b : FVec Ideal S64 .f32) :
    FVec Ideal S50000x64 .f32 :=
  Host.divf (broadcastInDim S50000x64 ![] bcast_S_S50000x64 (constant S_ .f32 0x3F800000#32))
    (addf (broadcastInDim S50000x64 ![] bcast_S_S50000x64 (constant S_ .f32 0x3F800000#32))
      (Host.exp (Host.negf
        (addf
          (addf agg
            (mulf (broadcastInDim S50000x64 ![0, 1] bcast_S50000x1_S50000x64_0_1
                    (broadcastInDim S50000x1 ![0] bcast_S50000_S50000x1_0 s)) h))
          (broadcastInDim S50000x64 ![0, 1] bcast_S1x64_S50000x64_0_1 (broadcastInDim S1x64 ![1] bcast_S64_S1x64_1 b))))))

/-- The specification's update, fed the one-column reshape of s and the one-row reshape of b, is the host's. -/
theorem update_eq_hostUpdate64 (agg h : FVec Ideal S50000x64 .f32) (s : FVec Ideal S50000 .f32) (b : FVec Ideal S64 .f32)
    (hs : S50000.ShapeCasts S50000x1) (hb : S64.ShapeCasts S1x64) :
    GcnSpec.update agg h (shapeCast S50000x1 s hs) (shapeCast S1x64 b hb) = hostUpdate64 agg h s b := by
  funext i
  obtain ⟨p, q, rfl⟩ : ∃ (p : Fin 50000) (q : Fin 64), i = ix2 p q := ⟨i 0, i 1, eq_ix2 i⟩
  rw [GcnSpec.update_apply, column_apply s hs p 0, shapeCast_a_1a_apply b hb 0 q]
  -- the host's lane-wise operations at (p, q), on the extended reals
  show _ = Ideal.div
    (broadcastInDim S50000x64 ![] bcast_S_S50000x64 (constant (F := Ideal) S_ .f32 0x3F800000#32) (ix2 p q))
    (broadcastInDim S50000x64 ![] bcast_S_S50000x64 (constant (F := Ideal) S_ .f32 0x3F800000#32) (ix2 p q)
      + Ideal.exp (-((agg (ix2 p q)
          + broadcastInDim S50000x64 ![0, 1] bcast_S50000x1_S50000x64_0_1
              (broadcastInDim S50000x1 ![0] bcast_S50000_S50000x1_0 s) (ix2 p q) * h (ix2 p q))
        + broadcastInDim S50000x64 ![0, 1] bcast_S1x64_S50000x64_0_1
            (broadcastInDim S1x64 ![1] bcast_S64_S1x64_1 b) (ix2 p q))))
  rw [one_apply, featureBroadcast_apply, biasBroadcast64_apply]
  rfl

/-- The host's node update of the one-feature last layer: the pre-activation is first divided by one. -/
def hostUpdate1 (agg h : FVec Ideal S50000x1 .f32) (s : FVec Ideal S50000 .f32) (b : FVec Ideal S1 .f32) :
    FVec Ideal S50000x1 .f32 :=
  Host.divf (broadcastInDim S50000x1 ![] bcast_S_S50000x1 (constant S_ .f32 0x3F800000#32))
    (addf (broadcastInDim S50000x1 ![] bcast_S_S50000x1 (constant S_ .f32 0x3F800000#32))
      (Host.exp (Host.negf
        (Host.divf
          (addf
            (addf agg (mulf (broadcastInDim S50000x1 ![0] bcast_S50000_S50000x1_0 s) h))
            (broadcastInDim S50000x1 ![0, 1] bcast_S1x1_S50000x1_0_1 (broadcastInDim S1x1 ![1] bcast_S1_S1x1_1 b)))
          (broadcastInDim S50000x1 ![] bcast_S_S50000x1 (constant S_ .f32 0x3F800000#32))))))

/-- The specification's update of the last layer, fed the one-column reshape of s and the [1, 1] reshape of b, is the
    host's: dividing by one is the identity on the extended reals. -/
theorem update_eq_hostUpdate1 (agg h : FVec Ideal S50000x1 .f32) (s : FVec Ideal S50000 .f32) (b : FVec Ideal S1 .f32)
    (hs : S50000.ShapeCasts S50000x1) (hb : S1.ShapeCasts S1x1) :
    GcnSpec.update agg h (shapeCast S50000x1 s hs) (shapeCast S1x1 b hb) = hostUpdate1 agg h s b := by
  funext i
  obtain ⟨p, q, rfl⟩ : ∃ (p : Fin 50000) (q : Fin 1), i = ix2 p q := ⟨i 0, i 1, eq_ix2 i⟩
  rw [GcnSpec.update_apply, column_apply s hs p 0, shapeCast_a_1a_apply b hb 0 q]
  -- the host's lane-wise operations at (p, q), on the extended reals
  show _ = Ideal.div
    (broadcastInDim S50000x1 ![] bcast_S_S50000x1 (constant (F := Ideal) S_ .f32 0x3F800000#32) (ix2 p q))
    (broadcastInDim S50000x1 ![] bcast_S_S50000x1 (constant (F := Ideal) S_ .f32 0x3F800000#32) (ix2 p q)
      + Ideal.exp (-(Ideal.div
          ((agg (ix2 p q) + broadcastInDim S50000x1 ![0] bcast_S50000_S50000x1_0 s (ix2 p q) * h (ix2 p q))
            + broadcastInDim S50000x1 ![0, 1] bcast_S1x1_S50000x1_0_1
                (broadcastInDim S1x1 ![1] bcast_S1_S1x1_1 b) (ix2 p q))
          (broadcastInDim S50000x1 ![] bcast_S_S50000x1 (constant (F := Ideal) S_ .f32 0x3F800000#32) (ix2 p q)))))
  rw [one_apply, columnBroadcast_apply, biasBroadcast1_apply, div_one_eq]
  rfl

end Cert.ReferenceIdeal.Layer

end
-- ==== Proof.KLayer1.lean ====
import proofs.«170177_j25752623907304_1_alg».proof.Proof.KEntry
import proofs.«170177_j25752623907304_1_alg».proof.Proof.RegionDense0
import proofs.«170177_j25752623907304_1_alg».proof.Proof.RegionUpdate1
import proofs.«170177_j25752623907304_1_alg».proof.Proof.RefLayer
import Idealize.ShloMosaic.Lib.StableHlo.Run

/-!
  The first layer of the kernel program, boundary by boundary: the linear kernel leaves features · W0; the host gathers
  each edge's source row, scales it by the edge's coefficient and sums the rows into the destination nodes — the
  reference's own operations on the same values, so the reference's stage —; the combine kernel leaves the logistic of
  aggregate + self-loop term + bias, which is the reference's first activation.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What the first region's exit and the host stretch after it read -/

theorem src_at2 : W2 m ρ c (Proc.devRef .tc main_v1) = Cert.ReferenceIdeal.Read.val_main_v1 (F := Ideal) (arg1 m c) :=
  (kept2 m ρ c main_v1 (by decide)).trans (src_at1 m ρ c)
theorem dst_at2 : W2 m ρ c (Proc.devRef .tc main_v3) = Cert.ReferenceIdeal.Read.val_main_v3 (F := Ideal) (arg1 m c) :=
  (kept2 m ρ c main_v3 (by decide)).trans (dst_at1 m ρ c)
theorem norm_at2 : W2 m ρ c (Proc.devRef .tc main_v25) = Cert.ReferenceIdeal.Read.val_main_v25 (F := Ideal) (arg1 m c) :=
  (kept2 m ρ c main_v25 (by decide)).trans (norm_at1 m ρ c)
theorem self_at2 : W2 m ρ c (Proc.devRef .tc main_v26) = Cert.ReferenceIdeal.Read.val_main_v26 (F := Ideal) (arg1 m c) :=
  (kept2 m ρ c main_v26 (by decide)).trans (self_at1 m ρ c)
theorem bias1_at2 : W2 m ρ c (Proc.devRef .tc main_arg4) = arg4 m c :=
  (kept2 m ρ c main_arg4 (by decide)).trans (arg4_at1 m ρ c)

/-- The first linear kernel's output: features · W0, the reference's first matrix product. -/
theorem lin1_at2 : W2 m ρ c (Proc.devRef .tc main_v27)
    = Cert.ReferenceIdeal.Read.val_main_v27 (F := Ideal) (arg0 m c) (arg3 m c) := by
  refine (W2_arr m ρ c 2).trans ?_
  rw [Cert.KernelIdeal.RegionValue.dense0]
  have e0 : V1 m ρ c main_arg0 = arg0 m c := arg0_at1 m ρ c
  have e3 : V1 m ρ c main_arg3 = arg3 m c := arg3_at1 m ρ c
  rw [e0, e3]
  exact Cert.ReferenceIdeal.Layer.dense_eq_dot64 _ _

/-- The host stretch between the two kernels does not write the linear kernel's output. -/
theorem lin1_at3 : W3 m ρ c (Proc.devRef .tc main_v27)
    = Cert.ReferenceIdeal.Read.val_main_v27 (F := Ideal) (arg0 m c) (arg3 m c) := by
  refine (?_ : StableHlo.after hostOps1 (W2 m ρ c) (Proc.devRef .tc main_v27) = W2 m ρ c (Proc.devRef .tc main_v27)).trans
    (lin1_at2 m ρ c)
  after_results_simp

/-- The aggregated messages: each edge's source row of the linear output, scaled by the edge's coefficient, summed into
    the edge's destination node. -/
theorem agg1_at3 : W3 m ρ c (Proc.devRef .tc main_v40)
    = Cert.ReferenceIdeal.Read.val_main_v40 (F := Ideal) (arg0 m c) (arg1 m c) (arg3 m c) := by
  show StableHlo.after hostOps1 (W2 m ρ c) (Proc.devRef .tc main_v40) = _
  after_results_simp
  rw [src_at2 m ρ c, dst_at2 m ρ c, norm_at2 m ρ c, lin1_at2 m ρ c]
  rfl

/-- The self-loop coefficient laid out as one column. -/
theorem selfcol1_at3 : W3 m ρ c (Proc.devRef .tc main_v41)
    = shapeCast S50000x1 (Cert.ReferenceIdeal.Read.val_main_v26 (F := Ideal) (arg1 m c)) shapeCasts_S50000_S50000x1 := by
  show StableHlo.after hostOps1 (W2 m ρ c) (Proc.devRef .tc main_v41) = _
  after_results_simp
  exact congrArg (fun x => shapeCast S50000x1 x shapeCasts_S50000_S50000x1) (self_at2 m ρ c)

/-- The first bias laid out as one row. -/
theorem biasrow1_at3 : W3 m ρ c (Proc.devRef .tc main_v42) = shapeCast S1x64 (arg4 m c) shapeCasts_S64_S1x64 := by
  show StableHlo.after hostOps1 (W2 m ρ c) (Proc.devRef .tc main_v42) = _
  after_results_simp
  exact congrArg (fun x => shapeCast S1x64 x shapeCasts_S64_S1x64) (bias1_at2 m ρ c)

/-- The first combine kernel's output is the reference's first activation. -/
theorem act1_at4 : W4 m ρ c (Proc.devRef .tc main_v43)
    = Cert.ReferenceIdeal.Read.val_main_v53 (F := Ideal) (arg0 m c) (arg1 m c) (arg3 m c) (arg4 m c) := by
  refine (W4_arr m ρ c 4).trans ?_
  rw [Cert.KernelIdeal.RegionValue.update1]
  have e0 : V3 m ρ c main_v40 = _ := agg1_at3 m ρ c
  have e1 : V3 m ρ c main_v27 = _ := lin1_at3 m ρ c
  have e2 : V3 m ρ c main_v41 = _ := selfcol1_at3 m ρ c
  have e3 : V3 m ρ c main_v42 = _ := biasrow1_at3 m ρ c
  rw [e0, e1, e2, e3]
  exact (Cert.ReferenceIdeal.Layer.update_eq_hostUpdate64 _ _ _ _ _ _).trans rfl

end Cert.KernelIdeal.Fold

end
-- ==== Proof.RegionDense2.lean ====
import proofs.«170177_j25752623907304_1_alg».proof.Proof.Gen.KernelIdeal.Frame
import proofs.«170177_j25752623907304_1_alg».proof.Proof.Spec
import proofs.«170177_j25752623907304_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The offset of a rectangle that starts at the origin, as the constant-zero function. -/
theorem dense2_origin : (![0, 0] : Fin 2 → Nat) = fun _ => 0 := funext fun a => by fin_cases a <;> rfl

/-- One grid point's product at an entry: a reshape to the same shape and a change of float format do nothing to an
    array of extended reals, and the matrix product into the zero accumulator at (r, q) is the sum over k of
    x0(r, k) · x1(k, q). -/
theorem dense2_point_apply (x0 : Vec Ideal S10000x64 .f32) (x1 : Vec Ideal S64x64 .f32) (r : Fin 10000) (q : Fin 64) :
    k2_pay1 (F := Ideal) x0 x1 (ix2 r q) = ∑ k : Fin 64, x0 (ix2 r k) * x1 (ix2 k q) := by
  unfold k2_pay1
  rw [shapeCast_self]
  exact Cert.Lib.PlainDot.matmul_zero_apply dot_S10000x64_S64x64_S10000x64_1_0_0_1_n_n rfl rfl rfl rfl rfl rfl none
    (truncf (F := Ideal) .bf16 x0 bitsLt_bf16_f32) (truncf (F := Ideal) .bf16 x1 bitsLt_bf16_f32) r q

/-- The grid has five points. -/
theorem dense2_point_lt (t : Fin cfg2.N) : t.val < 5 := lt_of_lt_of_eq t.isLt N_2

/-- Row r of block t is a row of the whole array. -/
theorem dense2_row_lt (t : Fin cfg2.N) (r : Fin 10000) : 10000 * t.val + r.val < 50000 := by
  have ht := dense2_point_lt t
  have hr := r.isLt
  omega

/-- The index maps, decided over the five grid points: the input rows and the output move with the point along the
    row axis and stay at column block 0; the weight is one block. -/
theorem dense2_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
/- The buffer contents when the region is entered: every lemma below holds for any such contents. -/
variable (V : (c : Dev nD) → (b : Ref sig .tc) → Buf (Elt Ideal) ((c : Thread nD τ).loc b))

/-- The input block of point t, read at (r, k), is the first layer's activation array at row 10000·t + r, column k. -/
theorem dense2_rows_block (c : Dev nD) (t : Fin cfg2.N) (r : Fin 10000) (k : Fin 64) :
    (iblk2 (F := Ideal) V c 0 t : Vec Ideal S10000x64 .f32) (ix2 r k)
      = V c main_v43 (ix2 (⟨10000 * t.val + r.val, dense2_row_lt t r⟩ : Fin 50000) k) := by
  show V c main_v43 (((cfg2.win 0).blk t).view.emb (ix2 r k)) = _
  refine congrArg (V c main_v43) ?_
  obtain ⟨e0, e1, -, -, -, -⟩ := dense2_index_maps t
  funext a; apply Fin.ext
  match a with
  | ⟨0, _⟩ => show win2_0.index t (0 : Fin 2) * 10000 + 1 * r.val = 10000 * t.val + r.val; omega
  | ⟨1, _⟩ => show win2_0.index t (1 : Fin 2) * 64 + 1 * k.val = k.val; omega

/-- The weight block of every point is the whole second weight array. -/
theorem dense2_weight_block (c : Dev nD) (t : Fin cfg2.N) (k : Fin 64) (q : Fin 64) :
    (iblk2 (F := Ideal) V c 1 t : Vec Ideal S64x64 .f32) (ix2 k q) = V c main_arg5 (ix2 k q) := by
  show V c main_arg5 (((cfg2.win 1).blk t).view.emb (ix2 k q)) = _
  refine congrArg (V c main_arg5) ?_
  obtain ⟨-, -, e2, e3, -, -⟩ := dense2_index_maps t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- Entry (r, q) of the output block of point t sits at row 10000·t + r, column q of the output array. -/
theorem dense2_out_position (t : Fin cfg2.N) (r : Fin 10000) (q : Fin 64) :
    ((cfg2.win 2).blk t).view.emb (ix2 r q) = ix2 (⟨10000 * t.val + r.val, dense2_row_lt t r⟩ : Fin 50000) q := by
  obtain ⟨-, -, -, -, e4, e5⟩ := dense2_index_maps t
  funext a; apply Fin.ext
  match a with
  | ⟨0, _⟩ => show win2_2.index t (0 : Fin 2) * 10000 + 1 * r.val = 10000 * t.val + r.val; omega
  | ⟨1, _⟩ => show win2_2.index t (1 : Fin 2) * 64 + 1 * q.val = q.val; omega

/-- What point t computes, entry by entry, is the product of the layer's input with its weight at the entry's place
    in the output array. -/
theorem dense2_point_eq (c : Dev nD) (t : Fin cfg2.N) (j : S10000x64.Idx) :
    k2_pay1 (F := Ideal) (iblk2 V c 0 t) (iblk2 V c 1 t) j
      = GcnSpec.dense (V c main_v43) (V c main_arg5) (((cfg2.win 2).blk t).view.emb j) := by
  obtain ⟨r, q, rfl⟩ : ∃ (r : Fin 10000) (q : Fin 64), j = ix2 r q := ⟨j 0, j 1, eq_ix2 j⟩
  rw [dense2_point_apply, dense2_out_position, GcnSpec.dense_apply]
  refine Finset.sum_congr rfl fun k _ => ?_
  rw [dense2_rows_block, dense2_weight_block]

/-- What point t writes back is block t of the product. -/
theorem dense2_flushed (c : Dev nD) (t : Fin cfg2.N) :
    (dat2 (F := Ideal) V c).flushed 2 t
      = ((cfg2.win 2).blk t).view.read (Elt Ideal) (GcnSpec.dense (V c main_v43) (V c main_arg5)) := by
  show (cfg2.win 2).cut (grid2.coords t) ((dat2 (F := Ideal) V c).after 2 t) = _
  rw [after2_2]
  unfold out2_2
  rw [View.canon_unit_zero dense2_origin]
  simp only [View.ld_unit_zero (S := S10000x64) dense2_origin, View.ld_unit_zero (S := S64x64) dense2_origin]
  funext j
  exact dense2_point_eq V c t j

end

/-- An index of the output array is in point t's block iff each coordinate is in the block's range on its axis. -/
theorem dense2_mem_block (t : Fin cfg2.N) (i : S50000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v44).slice (win2_2.rect t)).set ↔ _
  rw [View.set_slice_whole, Rect.mem_set_unit]
  exact Iff.rfl

/-- Every index of the output array is in the block of the point its row falls in: row p lies in block p / 10000. -/
theorem dense2_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  let t : Fin cfg2.N := ⟨(i 0).val / 10000, by rw [hN]; omega⟩
  have htv : t.val = (i 0).val / 10000 := rfl
  obtain ⟨-, -, -, -, e4, e5⟩ := dense2_index_maps t
  refine ⟨t, flush2_2 t, ?_⟩
  rw [dense2_mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/- The buffer contents when the region is entered: every lemma below holds for any such contents. -/
variable (V : (c : Dev nD) → (b : Ref sig .tc) → Buf (Elt Ideal) ((c : Thread nD τ).loc b))

/-- After the second layer's linear kernel has run over all five row blocks, its output array holds the first layer's activations times the second weight matrix. -/
theorem dense2 (c : Dev nD) :
    (dat2 (F := Ideal) V c).arrAt 2 cfg2.N = GcnSpec.dense (V c main_v43) (V c main_arg5) :=
  (dat2 (F := Ideal) V c).arrAt_eq_of_cover 2 (GcnSpec.dense (V c main_v43) (V c main_arg5))
    (fun t _ => dense2_flushed V c t) dense2_cover

end Cert.KernelIdeal.RegionValue

end
-- ==== Proof.RegionUpdate3.lean ====
import proofs.«170177_j25752623907304_1_alg».proof.Proof.Gen.KernelIdeal.Frame
import proofs.«170177_j25752623907304_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/- The buffer contents when the region is entered: every lemma below holds for any such contents. -/
variable (V : (c : Dev nD) → (b : Ref sig .tc) → Buf (Elt Ideal) ((c : Thread nD τ).loc b))

/-- Both block offsets of the body's accesses are zero. -/
theorem offsets_zero3 : (![0, 0] : Fin 2 → Nat) = fun _ => 0 := funext fun a => by fin_cases a <;> rfl

/-- A one-column array broadcast along the columns reads, at (p, q), the operand's entry in row p. -/
theorem column_broadcast3 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The value the second layer's body stores, read at row r and column q of the block: the logistic of the aggregated
    message plus the row's coefficient times the linear map's output, plus the column's bias. -/
theorem combine3_apply (x0 : Vec Ideal S10000x64 .f32) (x2 : Vec Ideal S10000x1 .f32) (x4 : Vec Ideal S10000x64 .f32)
    (x9 : Vec Ideal S1x64 .f32) (r : Fin 10000) (q : Fin 64) :
    k3_pay1 x0 x2 x4 x9 (ix2 r q)
      = Ideal.logistic ((x0 (ix2 r q) + x2 (ix2 r (0 : Fin 1)) * x4 (ix2 r q)) + x9 (ix2 (0 : Fin 1) q)) := by
  unfold k3_pay1
  simp only [shapeCast_self]
  show Ideal.logistic ((x0 (ix2 r q) + broadcastTo S10000x64 x2 broadcasts_S10000x1_S10000x64 (ix2 r q) * x4 (ix2 r q))
      + broadcastTo S10000x64 x9 broadcasts_S1x64_S10000x64 (ix2 r q)) = _
  rw [column_broadcast3, broadcastTo_1b_ab_apply]

/-- The second layer's index maps, decided over the five grid points: the three row-blocked inputs and the output sit
    at block row t, block column 0; the bias window stays at block (0, 0). -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row r of block t is row 10000·t + r of the array. -/
theorem row_lt3 (t : Fin cfg3.N) (r : Fin 10000) : 10000 * t.val + r.val < 50000 := by
  have ht : t.val < 5 := lt_of_lt_of_eq t.isLt N_3
  have hr := r.isLt
  omega

/-- The aggregated messages' block at point t, read at (r, q). -/
theorem agg_block3 (c : Dev nD) (t : Fin cfg3.N) (r : Fin 10000) (q : Fin 64) :
    (iblk3 V c 0 t : Vec Ideal S10000x64 .f32) (ix2 r q) = V c main_v57 (ix2 ⟨10000 * t.val + r.val, row_lt3 t r⟩ q) := by
  obtain ⟨e0, e1, -⟩ := block_index3 t
  show V c main_v57 (((cfg3.win 0).blk t).view.emb (ix2 r q)) = _
  refine congrArg (V c main_v57) (funext fun a => Fin.ext ?_)
  match a with
  | ⟨0, _⟩ => show win3_0.index t (0 : Fin 2) * 10000 + 1 * r.val = 10000 * t.val + r.val; omega
  | ⟨1, _⟩ => show win3_0.index t (1 : Fin 2) * 64 + 1 * q.val = q.val; omega

/-- The linear map's output block at point t, read at (r, q). -/
theorem lin_block3 (c : Dev nD) (t : Fin cfg3.N) (r : Fin 10000) (q : Fin 64) :
    (iblk3 V c 1 t : Vec Ideal S10000x64 .f32) (ix2 r q) = V c main_v44 (ix2 ⟨10000 * t.val + r.val, row_lt3 t r⟩ q) := by
  obtain ⟨-, -, e0, e1, -⟩ := block_index3 t
  show V c main_v44 (((cfg3.win 1).blk t).view.emb (ix2 r q)) = _
  refine congrArg (V c main_v44) (funext fun a => Fin.ext ?_)
  match a with
  | ⟨0, _⟩ => show win3_1.index t (0 : Fin 2) * 10000 + 1 * r.val = 10000 * t.val + r.val; omega
  | ⟨1, _⟩ => show win3_1.index t (1 : Fin 2) * 64 + 1 * q.val = q.val; omega

/-- The coefficient column's block at point t, read at (r, 0). -/
theorem coef_block3 (c : Dev nD) (t : Fin cfg3.N) (r : Fin 10000) :
    (iblk3 V c 2 t : Vec Ideal S10000x1 .f32) (ix2 r (0 : Fin 1)) = V c main_v58 (ix2 ⟨10000 * t.val + r.val, row_lt3 t r⟩ (0 : Fin 1)) := by
  obtain ⟨-, -, -, -, e0, e1, -⟩ := block_index3 t
  show V c main_v58 (((cfg3.win 2).blk t).view.emb (ix2 r (0 : Fin 1))) = _
  refine congrArg (V c main_v58) (funext fun a => Fin.ext ?_)
  match a with
  | ⟨0, _⟩ => show win3_2.index t (0 : Fin 2) * 10000 + 1 * r.val = 10000 * t.val + r.val; omega
  | ⟨1, _⟩ => show win3_2.index t (1 : Fin 2) * 1 + 1 * 0 = 0; omega

/-- The bias row's one block, read at (0, q): the same at every point. -/
theorem bias_block3 (c : Dev nD) (t : Fin cfg3.N) (q : Fin 64) :
    (iblk3 V c 3 t : Vec Ideal S1x64 .f32) (ix2 (0 : Fin 1) q) = V c main_v59 (ix2 (0 : Fin 1) q) := by
  obtain ⟨-, -, -, -, -, -, e0, e1, -⟩ := block_index3 t
  show V c main_v59 (((cfg3.win 3).blk t).view.emb (ix2 (0 : Fin 1) q)) = _
  refine congrArg (V c main_v59) (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- Where the output's block at point t puts its entry (r, q) in the array. -/
theorem out_block_emb3 (t : Fin cfg3.N) (r : Fin 10000) (q : Fin 64) :
    ((cfg3.win 4).blk t).view.emb (ix2 r q) = (ix2 ⟨10000 * t.val + r.val, row_lt3 t r⟩ q : S50000x64.Idx) := by
  obtain ⟨-, -, -, -, -, -, -, -, e0, e1⟩ := block_index3 t
  refine funext fun a => Fin.ext ?_
  match a with
  | ⟨0, _⟩ => show win3_4.index t (0 : Fin 2) * 10000 + 1 * r.val = 10000 * t.val + r.val; omega
  | ⟨1, _⟩ => show win3_4.index t (1 : Fin 2) * 64 + 1 * q.val = q.val; omega

/-- What point t writes back is block t of the layer's node update of the four arrays as the region finds them. -/
theorem writeback3 (c : Dev nD) (t : Fin cfg3.N) :
    (dat3 (F := Ideal) V c).flushed 4 t = ((cfg3.win 4).blk t).view.read (Elt Ideal)
      (GcnSpec.update (V c main_v57) (V c main_v44) (V c main_v58) (V c main_v59)) := by
  show (cfg3.win 4).cut (grid3.coords t) ((dat3 V c).after 4 t) = _
  rw [after3_4]
  unfold out3_4
  rw [View.canon_unit_zero offsets_zero3]
  simp only [View.ld_unit_zero (S := S10000x64) offsets_zero3, View.ld_unit_zero (S := S10000x1) offsets_zero3,
    View.ld_unit_zero (S := S1x64) offsets_zero3]
  funext j
  obtain ⟨r, q, rfl⟩ : ∃ (r : Fin 10000) (q : Fin 64), j = ix2 r q := ⟨j 0, j 1, eq_ix2 j⟩
  show k3_pay1 (iblk3 V c 0 t) (iblk3 V c 2 t) (iblk3 V c 1 t) (iblk3 V c 3 t) (ix2 r q)
    = GcnSpec.update (V c main_v57) (V c main_v44) (V c main_v58) (V c main_v59) (((cfg3.win 4).blk t).view.emb (ix2 r q))
  rw [combine3_apply, out_block_emb3, GcnSpec.update_apply, agg_block3, lin_block3, coef_block3, bias_block3]

/-- An index of the array is in point t's block iff each coordinate is in the block's range on its axis. -/
theorem mem_out_block3 (t : Fin cfg3.N) (i : S50000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v60).slice (win3_4.rect t)).set ↔ _
  rw [View.set_slice_whole, Rect.mem_set_unit]
  exact Iff.rfl

/-- Every row lies in the block of its quotient by 10000: the five blocks fill the array. -/
theorem blocks_fill3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : (i 0).val / 10000 < cfg3.N := lt_of_lt_of_eq (by omega) N_3.symm
  refine ⟨⟨(i 0).val / 10000, hN⟩, flush3_4 _, ?_⟩
  obtain ⟨-, -, -, -, -, -, -, -, e0, e1⟩ := block_index3 ⟨(i 0).val / 10000, hN⟩
  rw [mem_out_block3]
  intro a
  match a with
  | ⟨0, _⟩ =>
    show win3_4.index ⟨(i 0).val / 10000, hN⟩ (0 : Fin 2) * 10000 ≤ (i 0).val
      ∧ (i 0).val < win3_4.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win3_4.index ⟨(i 0).val / 10000, hN⟩ (1 : Fin 2) * 64 ≤ (i 1).val
      ∧ (i 1).val < win3_4.index ⟨(i 0).val / 10000, hN⟩ (1 : Fin 2) * 64 + 64
    omega

/-- After the second layer's combine kernel has run over all five row blocks, its output array holds the logistic of the aggregated messages plus the self-loop term plus the bias. -/
theorem update3 (c : Dev nD) :
    (dat3 (F := Ideal) V c).arrAt 4 cfg3.N = GcnSpec.update (V c main_v57) (V c main_v44) (V c main_v58) (V c main_v59) :=
  (dat3 (F := Ideal) V c).arrAt_eq_of_cover 4 _ (fun t _ => writeback3 V c t) blocks_fill3

end Cert.KernelIdeal.RegionValue

end
-- ==== Proof.KLayer2.lean ====
import proofs.«170177_j25752623907304_1_alg».proof.Proof.KLayer1
import proofs.«170177_j25752623907304_1_alg».proof.Proof.RegionDense2
import proofs.«170177_j25752623907304_1_alg».proof.Proof.RegionUpdate3
import proofs.«170177_j25752623907304_1_alg».proof.Proof.RefLayer
import Idealize.ShloMosaic.Lib.StableHlo.Run

/-!
  The second layer of the kernel program, boundary by boundary: the linear kernel leaves (first activation) · W1; the
  host gathers, scales and sums over the edges as in the first layer; the combine kernel leaves the logistic of
  aggregate + self-loop term + bias, which is the reference's second activation.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The second weight matrix when the second linear kernel is entered. -/
theorem w1_at4 : W4 m ρ c (Proc.devRef .tc main_arg5) = arg5 m c :=
  (kept4 m ρ c main_arg5 (by decide) (by after_results_simp) (by decide)).trans (arg5_at1 m ρ c)

/-- The second linear kernel's output: (first activation) · W1, the reference's second matrix product. -/
theorem lin2_at5 : W5 m ρ c (Proc.devRef .tc main_v44)
    = Cert.ReferenceIdeal.Read.val_main_v54 (F := Ideal) (arg0 m c) (arg1 m c) (arg3 m c) (arg4 m c) (arg5 m c) := by
  refine (W5_arr m ρ c 2).trans ?_
  rw [Cert.KernelIdeal.RegionValue.dense2]
  have e0 : V4 m ρ c main_v43 = _ := act1_at4 m ρ c
  have e1 : V4 m ρ c main_arg5 = arg5 m c := w1_at4 m ρ c
  rw [e0, e1]
  exact Cert.ReferenceIdeal.Layer.dense_eq_dot64 _ _

/-! ## What the host stretch after the second linear kernel reads -/

theorem src_at5 : W5 m ρ c (Proc.devRef .tc main_v1) = Cert.ReferenceIdeal.Read.val_main_v1 (F := Ideal) (arg1 m c) :=
  (kept5 m ρ c main_v1 (by decide) (by after_results_simp) (by decide) (by decide)).trans (src_at1 m ρ c)
theorem dst_at5 : W5 m ρ c (Proc.devRef .tc main_v3) = Cert.ReferenceIdeal.Read.val_main_v3 (F := Ideal) (arg1 m c) :=
  (kept5 m ρ c main_v3 (by decide) (by after_results_simp) (by decide) (by decide)).trans (dst_at1 m ρ c)
theorem norm_at5 : W5 m ρ c (Proc.devRef .tc main_v25) = Cert.ReferenceIdeal.Read.val_main_v25 (F := Ideal) (arg1 m c) :=
  (kept5 m ρ c main_v25 (by decide) (by after_results_simp) (by decide) (by decide)).trans (norm_at1 m ρ c)
theorem self_at5 : W5 m ρ c (Proc.devRef .tc main_v26) = Cert.ReferenceIdeal.Read.val_main_v26 (F := Ideal) (arg1 m c) :=
  (kept5 m ρ c main_v26 (by decide) (by after_results_simp) (by decide) (by decide)).trans (self_at1 m ρ c)
theorem bias2_at5 : W5 m ρ c (Proc.devRef .tc main_arg6) = arg6 m c :=
  (kept5 m ρ c main_arg6 (by decide) (by after_results_simp) (by decide) (by decide)).trans (arg6_at1 m ρ c)

/-- The host stretch between the two kernels does not write the linear kernel's output. -/
theorem lin2_at6 : W6 m ρ c (Proc.devRef .tc main_v44)
    = Cert.ReferenceIdeal.Read.val_main_v54 (F := Ideal) (arg0 m c) (arg1 m c) (arg3 m c) (arg4 m c) (arg5 m c) := by
  refine (?_ : StableHlo.after hostOps3 (W5 m ρ c) (Proc.devRef .tc main_v44) = W5 m ρ c (Proc.devRef .tc main_v44)).trans
    (lin2_at5 m ρ c)
  after_results_simp

/-- The aggregated messages of the second layer. -/
theorem agg2_at6 : W6 m ρ c (Proc.devRef .tc main_v57)
    = Cert.ReferenceIdeal.Read.val_main_v67 (F := Ideal) (arg0 m c) (arg1 m c) (arg3 m c) (arg4 m c) (arg5 m c) := by
  show StableHlo.after hostOps3 (W5 m ρ c) (Proc.devRef .tc main_v57) = _
  after_results_simp
  rw [src_at5 m ρ c, dst_at5 m ρ c, norm_at5 m ρ c, lin2_at5 m ρ c]
  rfl

/-- The self-loop coefficient laid out as one column. -/
theorem selfcol2_at6 : W6 m ρ c (Proc.devRef .tc main_v58)
    = shapeCast S50000x1 (Cert.ReferenceIdeal.Read.val_main_v26 (F := Ideal) (arg1 m c)) shapeCasts_S50000_S50000x1 := by
  show StableHlo.after hostOps3 (W5 m ρ c) (Proc.devRef .tc main_v58) = _
  after_results_simp
  exact congrArg (fun x => shapeCast S50000x1 x shapeCasts_S50000_S50000x1) (self_at5 m ρ c)

/-- The second bias laid out as one row. -/
theorem biasrow2_at6 : W6 m ρ c (Proc.devRef .tc main_v59) = shapeCast S1x64 (arg6 m c) shapeCasts_S64_S1x64 := by
  show StableHlo.after hostOps3 (W5 m ρ c) (Proc.devRef .tc main_v59) = _
  after_results_simp
  exact congrArg (fun x => shapeCast S1x64 x shapeCasts_S64_S1x64) (bias2_at5 m ρ c)

/-- The second combine kernel's output is the reference's second activation. -/
theorem act2_at7 : W7 m ρ c (Proc.devRef .tc main_v60)
    = Cert.ReferenceIdeal.Read.val_main_v80 (F := Ideal) (arg0 m c) (arg1 m c) (arg3 m c) (arg4 m c) (arg5 m c) (arg6 m c) := by
  refine (W7_arr m ρ c 4).trans ?_
  rw [Cert.KernelIdeal.RegionValue.update3]
  have e0 : V6 m ρ c main_v57 = _ := agg2_at6 m ρ c
  have e1 : V6 m ρ c main_v44 = _ := lin2_at6 m ρ c
  have e2 : V6 m ρ c main_v58 = _ := selfcol2_at6 m ρ c
  have e3 : V6 m ρ c main_v59 = _ := biasrow2_at6 m ρ c
  rw [e0, e1, e2, e3]
  exact (Cert.ReferenceIdeal.Layer.update_eq_hostUpdate64 _ _ _ _ _ _).trans rfl

end Cert.KernelIdeal.Fold

end
-- ==== Proof.RegionDense4.lean ====
import proofs.«170177_j25752623907304_1_alg».proof.Proof.Gen.KernelIdeal.Frame
import proofs.«170177_j25752623907304_1_alg».proof.Proof.Spec
import proofs.«170177_j25752623907304_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The offset of a rectangle that starts at the origin, as the constant-zero function. -/
theorem dense4_origin : (![0, 0] : Fin 2 → Nat) = fun _ => 0 := funext fun a => by fin_cases a <;> rfl

/-- One grid point's product at an entry: a reshape to the same shape and a change of float format do nothing to an
    array of extended reals, and the matrix product into the zero accumulator at (r, q) is the sum over k of
    x0(r, k) · x1(k, q). -/
theorem dense4_point_apply (x0 : Vec Ideal S10000x64 .f32) (x1 : Vec Ideal S64x1 .f32) (r : Fin 10000) (q : Fin 1) :
    k4_pay1 (F := Ideal) x0 x1 (ix2 r q) = ∑ k : Fin 64, x0 (ix2 r k) * x1 (ix2 k q) := by
  unfold k4_pay1
  rw [shapeCast_self]
  exact Cert.Lib.PlainDot.matmul_zero_apply dot_S10000x64_S64x1_S10000x1_1_0_0_1_n_n rfl rfl rfl rfl rfl rfl none
    (truncf (F := Ideal) .bf16 x0 bitsLt_bf16_f32) (truncf (F := Ideal) .bf16 x1 bitsLt_bf16_f32) r q

/-- The grid has five points. -/
theorem dense4_point_lt (t : Fin cfg4.N) : t.val < 5 := lt_of_lt_of_eq t.isLt N_4

/-- Row r of block t is a row of the whole array. -/
theorem dense4_row_lt (t : Fin cfg4.N) (r : Fin 10000) : 10000 * t.val + r.val < 50000 := by
  have ht := dense4_point_lt t
  have hr := r.isLt
  omega

/-- The index maps, decided over the five grid points: the input rows and the output move with the point along the
    row axis and stay at column block 0; the weight is one block. -/
theorem dense4_index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
/- The buffer contents when the region is entered: every lemma below holds for any such contents. -/
variable (V : (c : Dev nD) → (b : Ref sig .tc) → Buf (Elt Ideal) ((c : Thread nD τ).loc b))

/-- The input block of point t, read at (r, k), is the second layer's activation array at row 10000·t + r, column k. -/
theorem dense4_rows_block (c : Dev nD) (t : Fin cfg4.N) (r : Fin 10000) (k : Fin 64) :
    (iblk4 (F := Ideal) V c 0 t : Vec Ideal S10000x64 .f32) (ix2 r k)
      = V c main_v60 (ix2 (⟨10000 * t.val + r.val, dense4_row_lt t r⟩ : Fin 50000) k) := by
  show V c main_v60 (((cfg4.win 0).blk t).view.emb (ix2 r k)) = _
  refine congrArg (V c main_v60) ?_
  obtain ⟨e0, e1, -, -, -, -⟩ := dense4_index_maps t
  funext a; apply Fin.ext
  match a with
  | ⟨0, _⟩ => show win4_0.index t (0 : Fin 2) * 10000 + 1 * r.val = 10000 * t.val + r.val; omega
  | ⟨1, _⟩ => show win4_0.index t (1 : Fin 2) * 64 + 1 * k.val = k.val; omega

/-- The weight block of every point is the whole third weight array. -/
theorem dense4_weight_block (c : Dev nD) (t : Fin cfg4.N) (k : Fin 64) (q : Fin 1) :
    (iblk4 (F := Ideal) V c 1 t : Vec Ideal S64x1 .f32) (ix2 k q) = V c main_arg7 (ix2 k q) := by
  show V c main_arg7 (((cfg4.win 1).blk t).view.emb (ix2 k q)) = _
  refine congrArg (V c main_arg7) ?_
  obtain ⟨-, -, e2, e3, -, -⟩ := dense4_index_maps t
  funext a; apply Fin.ext
  match a with
  | ⟨0, _⟩ => show win4_1.index t (0 : Fin 2) * 64 + 1 * k.val = k.val; omega
  | ⟨1, _⟩ => show win4_1.index t (1 : Fin 2) * 1 + 1 * q.val = q.val; omega

/-- Entry (r, q) of the output block of point t sits at row 10000·t + r, column q of the output array. -/
theorem dense4_out_position (t : Fin cfg4.N) (r : Fin 10000) (q : Fin 1) :
    ((cfg4.win 2).blk t).view.emb (ix2 r q) = ix2 (⟨10000 * t.val + r.val, dense4_row_lt t r⟩ : Fin 50000) q := by
  obtain ⟨-, -, -, -, e4, e5⟩ := dense4_index_maps t
  funext a; apply Fin.ext
  match a with
  | ⟨0, _⟩ => show win4_2.index t (0 : Fin 2) * 10000 + 1 * r.val = 10000 * t.val + r.val; omega
  | ⟨1, _⟩ => show win4_2.index t (1 : Fin 2) * 1 + 1 * q.val = q.val; omega

/-- What point t computes, entry by entry, is the product of the layer's input with its weight at the entry's place
    in the output array. -/
theorem dense4_point_eq (c : Dev nD) (t : Fin cfg4.N) (j : S10000x1.Idx) :
    k4_pay1 (F := Ideal) (iblk4 V c 0 t) (iblk4 V c 1 t) j
      = GcnSpec.dense (V c main_v60) (V c main_arg7) (((cfg4.win 2).blk t).view.emb j) := by
  obtain ⟨r, q, rfl⟩ : ∃ (r : Fin 10000) (q : Fin 1), j = ix2 r q := ⟨j 0, j 1, eq_ix2 j⟩
  rw [dense4_point_apply, dense4_out_position, GcnSpec.dense_apply]
  refine Finset.sum_congr rfl fun k _ => ?_
  rw [dense4_rows_block, dense4_weight_block]

/-- What point t writes back is block t of the product. -/
theorem dense4_flushed (c : Dev nD) (t : Fin cfg4.N) :
    (dat4 (F := Ideal) V c).flushed 2 t
      = ((cfg4.win 2).blk t).view.read (Elt Ideal) (GcnSpec.dense (V c main_v60) (V c main_arg7)) := by
  show (cfg4.win 2).cut (grid4.coords t) ((dat4 (F := Ideal) V c).after 2 t) = _
  rw [after4_2]
  unfold out4_2
  rw [View.canon_unit_zero dense4_origin]
  simp only [View.ld_unit_zero (S := S10000x64) dense4_origin, View.ld_unit_zero (S := S64x1) dense4_origin]
  funext j
  exact dense4_point_eq V c t j

end

/-- An index of the output array is in point t's block iff each coordinate is in the block's range on its axis. -/
theorem dense4_mem_block (t : Fin cfg4.N) (i : S50000x1.Idx) :
    i ∈ ((cfg4.win 2).blk t).view.set ↔ ∀ a : Fin 2, win4_2.index t a * S10000x1.size a ≤ (i a).val
      ∧ (i a).val < win4_2.index t a * S10000x1.size a + S10000x1.size a := by
  show i ∈ ((View.whole main_v61).slice (win4_2.rect t)).set ↔ _
  rw [View.set_slice_whole, Rect.mem_set_unit]
  exact Iff.rfl

/-- Every index of the output array is in the block of the point its row falls in: row p lies in block p / 10000. -/
theorem dense4_cover (i : S50000x1.Idx) :
    ∃ t : Fin cfg4.N, (cfg4.win 2).flush t = true ∧ i ∈ ((cfg4.win 2).blk t).view.set := by
  have hi0 : (i 0).val < 50000 := (i 0).isLt
  have hi1 : (i 1).val < 1 := (i 1).isLt
  have hN : cfg4.N = 5 := N_4
  let t : Fin cfg4.N := ⟨(i 0).val / 10000, by rw [hN]; omega⟩
  have htv : t.val = (i 0).val / 10000 := rfl
  obtain ⟨-, -, -, -, e4, e5⟩ := dense4_index_maps t
  refine ⟨t, flush4_2 t, ?_⟩
  rw [dense4_mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 1 ≤ (i 1).val ∧ (i 1).val < win4_2.index t (1 : Fin 2) * 1 + 1; omega

/- The buffer contents when the region is entered: every lemma below holds for any such contents. -/
variable (V : (c : Dev nD) → (b : Ref sig .tc) → Buf (Elt Ideal) ((c : Thread nD τ).loc b))

/-- After the third layer's linear kernel has run over all five row blocks, its one-column output array holds the second layer's activations times the third weight column. -/
theorem dense4 (c : Dev nD) :
    (dat4 (F := Ideal) V c).arrAt 2 cfg4.N = GcnSpec.dense (V c main_v60) (V c main_arg7) :=
  (dat4 (F := Ideal) V c).arrAt_eq_of_cover 2 (GcnSpec.dense (V c main_v60) (V c main_arg7))
    (fun t _ => dense4_flushed V c t) dense4_cover

end Cert.KernelIdeal.RegionValue

end
-- ==== Proof.RegionUpdate5.lean ====
import proofs.«170177_j25752623907304_1_alg».proof.Proof.Gen.KernelIdeal.Frame
import proofs.«170177_j25752623907304_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/- The buffer contents when the region is entered: every lemma below holds for any such contents. -/
variable (V : (c : Dev nD) → (b : Ref sig .tc) → Buf (Elt Ideal) ((c : Thread nD τ).loc b))

/-- Both block offsets of the body's accesses are zero. -/
theorem offsets_zero5 : (![0, 0] : Fin 2 → Nat) = fun _ => 0 := funext fun a => by fin_cases a <;> rfl

/-- The value the third layer's body stores, read at row r of its one column: the logistic of the aggregated message
    plus the row's coefficient times the linear map's output, plus the single bias entry, which is repeated down the rows. -/
theorem combine5_apply (x0 x2 x4 : Vec Ideal S10000x1 .f32) (x8 : Vec Ideal S1x1 .f32) (r : Fin 10000) :
    k5_pay1 x0 x2 x4 x8 (ix2 r (0 : Fin 1))
      = Ideal.logistic ((x0 (ix2 r (0 : Fin 1)) + x2 (ix2 r (0 : Fin 1)) * x4 (ix2 r (0 : Fin 1)))
          + x8 (ix2 (0 : Fin 1) (0 : Fin 1))) := by
  unfold k5_pay1
  simp only [shapeCast_self]
  show Ideal.logistic ((x0 (ix2 r (0 : Fin 1)) + x2 (ix2 r (0 : Fin 1)) * x4 (ix2 r (0 : Fin 1)))
      + broadcastTo S10000x1 x8 broadcasts_S1x1_S10000x1 (ix2 r (0 : Fin 1))) = _
  rw [broadcastTo_1b_ab_apply]

/-- The third layer's index maps, decided over the five grid points: the three row-blocked inputs and the output sit
    at block row t, block column 0; the bias window stays at block (0, 0). -/
theorem block_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row r of block t is row 10000·t + r of the array. -/
theorem row_lt5 (t : Fin cfg5.N) (r : Fin 10000) : 10000 * t.val + r.val < 50000 := by
  have ht : t.val < 5 := lt_of_lt_of_eq t.isLt N_5
  have hr := r.isLt
  omega

/-- The aggregated messages' block at point t, read at row r. -/
theorem agg_block5 (c : Dev nD) (t : Fin cfg5.N) (r : Fin 10000) :
    (iblk5 V c 0 t : Vec Ideal S10000x1 .f32) (ix2 r (0 : Fin 1))
      = V c main_v73 (ix2 ⟨10000 * t.val + r.val, row_lt5 t r⟩ (0 : Fin 1)) := by
  obtain ⟨e0, e1, -⟩ := block_index5 t
  show V c main_v73 (((cfg5.win 0).blk t).view.emb (ix2 r (0 : Fin 1))) = _
  refine congrArg (V c main_v73) (funext fun a => Fin.ext ?_)
  match a with
  | ⟨0, _⟩ => show win5_0.index t (0 : Fin 2) * 10000 + 1 * r.val = 10000 * t.val + r.val; omega
  | ⟨1, _⟩ => show win5_0.index t (1 : Fin 2) * 1 + 1 * 0 = 0; omega

/-- The linear map's output block at point t, read at row r. -/
theorem lin_block5 (c : Dev nD) (t : Fin cfg5.N) (r : Fin 10000) :
    (iblk5 V c 1 t : Vec Ideal S10000x1 .f32) (ix2 r (0 : Fin 1))
      = V c main_v61 (ix2 ⟨10000 * t.val + r.val, row_lt5 t r⟩ (0 : Fin 1)) := by
  obtain ⟨-, -, e0, e1, -⟩ := block_index5 t
  show V c main_v61 (((cfg5.win 1).blk t).view.emb (ix2 r (0 : Fin 1))) = _
  refine congrArg (V c main_v61) (funext fun a => Fin.ext ?_)
  match a with
  | ⟨0, _⟩ => show win5_1.index t (0 : Fin 2) * 10000 + 1 * r.val = 10000 * t.val + r.val; omega
  | ⟨1, _⟩ => show win5_1.index t (1 : Fin 2) * 1 + 1 * 0 = 0; omega

/-- The coefficient column's block at point t, read at row r. -/
theorem coef_block5 (c : Dev nD) (t : Fin cfg5.N) (r : Fin 10000) :
    (iblk5 V c 2 t : Vec Ideal S10000x1 .f32) (ix2 r (0 : Fin 1))
      = V c main_v74 (ix2 ⟨10000 * t.val + r.val, row_lt5 t r⟩ (0 : Fin 1)) := by
  obtain ⟨-, -, -, -, e0, e1, -⟩ := block_index5 t
  show V c main_v74 (((cfg5.win 2).blk t).view.emb (ix2 r (0 : Fin 1))) = _
  refine congrArg (V c main_v74) (funext fun a => Fin.ext ?_)
  match a with
  | ⟨0, _⟩ => show win5_2.index t (0 : Fin 2) * 10000 + 1 * r.val = 10000 * t.val + r.val; omega
  | ⟨1, _⟩ => show win5_2.index t (1 : Fin 2) * 1 + 1 * 0 = 0; omega

/-- The bias array's one entry, the same block at every point. -/
theorem bias_block5 (c : Dev nD) (t : Fin cfg5.N) :
    (iblk5 V c 3 t : Vec Ideal S1x1 .f32) (ix2 (0 : Fin 1) (0 : Fin 1)) = V c main_v75 (ix2 (0 : Fin 1) (0 : Fin 1)) := by
  obtain ⟨-, -, -, -, -, -, e0, e1, -⟩ := block_index5 t
  show V c main_v75 (((cfg5.win 3).blk t).view.emb (ix2 (0 : Fin 1) (0 : Fin 1))) = _
  refine congrArg (V c main_v75) (funext fun a => Fin.ext ?_)
  match a with
  | ⟨0, _⟩ => show win5_3.index t (0 : Fin 2) * 1 + 1 * 0 = 0; omega
  | ⟨1, _⟩ => show win5_3.index t (1 : Fin 2) * 1 + 1 * 0 = 0; omega

/-- Where the output's block at point t puts its row r in the array. -/
theorem out_block_emb5 (t : Fin cfg5.N) (r : Fin 10000) :
    ((cfg5.win 4).blk t).view.emb (ix2 r (0 : Fin 1))
      = (ix2 ⟨10000 * t.val + r.val, row_lt5 t r⟩ (0 : Fin 1) : S50000x1.Idx) := by
  obtain ⟨-, -, -, -, -, -, -, -, e0, e1⟩ := block_index5 t
  refine funext fun a => Fin.ext ?_
  match a with
  | ⟨0, _⟩ => show win5_4.index t (0 : Fin 2) * 10000 + 1 * r.val = 10000 * t.val + r.val; omega
  | ⟨1, _⟩ => show win5_4.index t (1 : Fin 2) * 1 + 1 * 0 = 0; omega

/-- What point t writes back is block t of the layer's node update of the four arrays as the region finds them. -/
theorem writeback5 (c : Dev nD) (t : Fin cfg5.N) :
    (dat5 (F := Ideal) V c).flushed 4 t = ((cfg5.win 4).blk t).view.read (Elt Ideal)
      (GcnSpec.update (V c main_v73) (V c main_v61) (V c main_v74) (V c main_v75)) := by
  show (cfg5.win 4).cut (grid5.coords t) ((dat5 V c).after 4 t) = _
  rw [after5_4]
  unfold out5_4
  rw [View.canon_unit_zero offsets_zero5]
  simp only [View.ld_unit_zero (S := S10000x1) offsets_zero5, View.ld_unit_zero (S := S1x1) offsets_zero5]
  funext j
  obtain ⟨r, q, rfl⟩ : ∃ (r : Fin 10000) (q : Fin 1), j = ix2 r q := ⟨j 0, j 1, eq_ix2 j⟩
  obtain rfl : q = 0 := Fin.fin_one_eq_zero q
  show k5_pay1 (iblk5 V c 0 t) (iblk5 V c 2 t) (iblk5 V c 1 t) (iblk5 V c 3 t) (ix2 r (0 : Fin 1))
    = GcnSpec.update (V c main_v73) (V c main_v61) (V c main_v74) (V c main_v75)
        (((cfg5.win 4).blk t).view.emb (ix2 r (0 : Fin 1)))
  rw [combine5_apply, out_block_emb5, GcnSpec.update_apply, agg_block5, lin_block5, coef_block5, bias_block5]

/-- An index of the array is in point t's block iff each coordinate is in the block's range on its axis. -/
theorem mem_out_block5 (t : Fin cfg5.N) (i : S50000x1.Idx) :
    i ∈ ((cfg5.win 4).blk t).view.set ↔ ∀ a : Fin 2, win5_4.index t a * S10000x1.size a ≤ (i a).val
      ∧ (i a).val < win5_4.index t a * S10000x1.size a + S10000x1.size a := by
  show i ∈ ((View.whole main_v76).slice (win5_4.rect t)).set ↔ _
  rw [View.set_slice_whole, Rect.mem_set_unit]
  exact Iff.rfl

/-- Every row lies in the block of its quotient by 10000: the five blocks fill the one-column array. -/
theorem blocks_fill5 (i : S50000x1.Idx) :
    ∃ t : Fin cfg5.N, (cfg5.win 4).flush t = true ∧ i ∈ ((cfg5.win 4).blk t).view.set := by
  have hi0 : (i 0).val < 50000 := (i 0).isLt
  have hi1 : (i 1).val < 1 := (i 1).isLt
  have hN : (i 0).val / 10000 < cfg5.N := lt_of_lt_of_eq (by omega) N_5.symm
  refine ⟨⟨(i 0).val / 10000, hN⟩, flush5_4 _, ?_⟩
  obtain ⟨-, -, -, -, -, -, -, -, e0, e1⟩ := block_index5 ⟨(i 0).val / 10000, hN⟩
  rw [mem_out_block5]
  intro a
  match a with
  | ⟨0, _⟩ =>
    show win5_4.index ⟨(i 0).val / 10000, hN⟩ (0 : Fin 2) * 10000 ≤ (i 0).val
      ∧ (i 0).val < win5_4.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win5_4.index ⟨(i 0).val / 10000, hN⟩ (1 : Fin 2) * 1 ≤ (i 1).val
      ∧ (i 1).val < win5_4.index ⟨(i 0).val / 10000, hN⟩ (1 : Fin 2) * 1 + 1
    omega

/-- After the third layer's combine kernel has run over all five row blocks, its one-column output array holds the logistic of the aggregated messages plus the self-loop term plus the bias. -/
theorem update5 (c : Dev nD) :
    (dat5 (F := Ideal) V c).arrAt 4 cfg5.N = GcnSpec.update (V c main_v73) (V c main_v61) (V c main_v74) (V c main_v75) :=
  (dat5 (F := Ideal) V c).arrAt_eq_of_cover 4 _ (fun t _ => writeback5 V c t) blocks_fill5

end Cert.KernelIdeal.RegionValue

end
-- ==== Proof.KLayer3.lean ====
import proofs.«170177_j25752623907304_1_alg».proof.Proof.KLayer2
import proofs.«170177_j25752623907304_1_alg».proof.Proof.RegionDense4
import proofs.«170177_j25752623907304_1_alg».proof.Proof.RegionUpdate5
import proofs.«170177_j25752623907304_1_alg».proof.Proof.RefLayer
import Idealize.ShloMosaic.Lib.StableHlo.Run

/-!
  The third layer of the kernel program and its result: the linear kernel leaves (second activation) · W2, one column;
  the host gathers, scales and sums over the edges; the combine kernel leaves the logistic of aggregate + self-loop term
  + bias — the reference divides the same pre-activation by one first, which changes nothing —; the last host stretch
  adds the same small constant on both sides. So the kernel program's result buffer ends at the reference's result.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The third weight column when the third linear kernel is entered. -/
theorem w2_at7 : W7 m ρ c (Proc.devRef .tc main_arg7) = arg7 m c :=
  (kept7 m ρ c main_arg7 (by decide) (by after_results_simp) (by decide) (by decide) (by after_results_simp) (by decide)).trans
    (arg7_at1 m ρ c)

/-- The third linear kernel's output: (second activation) · W2, the reference's third matrix product. -/
theorem lin3_at8 : W8 m ρ c (Proc.devRef .tc main_v61)
    = Cert.ReferenceIdeal.Read.val_main_v81 (F := Ideal) (arg0 m c) (arg1 m c) (arg3 m c) (arg4 m c) (arg5 m c) (arg6 m c)
        (arg7 m c) := by
  refine (W8_arr m ρ c 2).trans ?_
  rw [Cert.KernelIdeal.RegionValue.dense4]
  have e0 : V7 m ρ c main_v60 = _ := act2_at7 m ρ c
  have e1 : V7 m ρ c main_arg7 = arg7 m c := w2_at7 m ρ c
  rw [e0, e1]
  exact Cert.ReferenceIdeal.Layer.dense_eq_dot1 _ _

/-! ## What the host stretch after the third linear kernel reads -/

theorem src_at8 : W8 m ρ c (Proc.devRef .tc main_v1) = Cert.ReferenceIdeal.Read.val_main_v1 (F := Ideal) (arg1 m c) :=
  (kept8 m ρ c main_v1 (by decide) (by after_results_simp) (by decide) (by decide) (by after_results_simp) (by decide)
    (by decide)).trans (src_at1 m ρ c)
theorem dst_at8 : W8 m ρ c (Proc.devRef .tc main_v3) = Cert.ReferenceIdeal.Read.val_main_v3 (F := Ideal) (arg1 m c) :=
  (kept8 m ρ c main_v3 (by decide) (by after_results_simp) (by decide) (by decide) (by after_results_simp) (by decide)
    (by decide)).trans (dst_at1 m ρ c)
theorem norm_at8 : W8 m ρ c (Proc.devRef .tc main_v25) = Cert.ReferenceIdeal.Read.val_main_v25 (F := Ideal) (arg1 m c) :=
  (kept8 m ρ c main_v25 (by decide) (by after_results_simp) (by decide) (by decide) (by after_results_simp) (by decide)
    (by decide)).trans (norm_at1 m ρ c)
theorem self_at8 : W8 m ρ c (Proc.devRef .tc main_v26) = Cert.ReferenceIdeal.Read.val_main_v26 (F := Ideal) (arg1 m c) :=
  (kept8 m ρ c main_v26 (by decide) (by after_results_simp) (by decide) (by decide) (by after_results_simp) (by decide)
    (by decide)).trans (self_at1 m ρ c)
theorem bias3_at8 : W8 m ρ c (Proc.devRef .tc main_arg8) = arg8 m c :=
  (kept8 m ρ c main_arg8 (by decide) (by after_results_simp) (by decide) (by decide) (by after_results_simp) (by decide)
    (by decide)).trans (arg8_at1 m ρ c)

/-- The host stretch between the two kernels does not write the linear kernel's output. -/
theorem lin3_at9 : W9 m ρ c (Proc.devRef .tc main_v61)
    = Cert.ReferenceIdeal.Read.val_main_v81 (F := Ideal) (arg0 m c) (arg1 m c) (arg3 m c) (arg4 m c) (arg5 m c) (arg6 m c)
        (arg7 m c) := by
  refine (?_ : StableHlo.after hostOps5 (W8 m ρ c) (Proc.devRef .tc main_v61) = W8 m ρ c (Proc.devRef .tc main_v61)).trans
    (lin3_at8 m ρ c)
  after_results_simp

/-- The aggregated messages of the third layer. -/
theorem agg3_at9 : W9 m ρ c (Proc.devRef .tc main_v73)
    = Cert.ReferenceIdeal.Read.val_main_v93 (F := Ideal) (arg0 m c) (arg1 m c) (arg3 m c) (arg4 m c) (arg5 m c) (arg6 m c)
        (arg7 m c) := by
  show StableHlo.after hostOps5 (W8 m ρ c) (Proc.devRef .tc main_v73) = _
  after_results_simp
  rw [src_at8 m ρ c, dst_at8 m ρ c, norm_at8 m ρ c, lin3_at8 m ρ c]
  rfl

/-- The self-loop coefficient laid out as one column. -/
theorem selfcol3_at9 : W9 m ρ c (Proc.devRef .tc main_v74)
    = shapeCast S50000x1 (Cert.ReferenceIdeal.Read.val_main_v26 (F := Ideal) (arg1 m c)) shapeCasts_S50000_S50000x1 := by
  show StableHlo.after hostOps5 (W8 m ρ c) (Proc.devRef .tc main_v74) = _
  after_results_simp
  exact congrArg (fun x => shapeCast S50000x1 x shapeCasts_S50000_S50000x1) (self_at8 m ρ c)

/-- The third bias laid out as a one-by-one array. -/
theorem biasrow3_at9 : W9 m ρ c (Proc.devRef .tc main_v75) = shapeCast S1x1 (arg8 m c) shapeCasts_S1_S1x1 := by
  show StableHlo.after hostOps5 (W8 m ρ c) (Proc.devRef .tc main_v75) = _
  after_results_simp
  exact congrArg (fun x => shapeCast S1x1 x shapeCasts_S1_S1x1) (bias3_at8 m ρ c)

/-- The third combine kernel's output is the reference's third activation. -/
theorem act3_at10 : W10 m ρ c (Proc.devRef .tc main_v76)
    = Cert.ReferenceIdeal.Read.val_main_v107 (F := Ideal) (arg0 m c) (arg1 m c) (arg3 m c) (arg4 m c) (arg5 m c) (arg6 m c)
        (arg7 m c) (arg8 m c) := by
  refine (W10_arr m ρ c 4).trans ?_
  rw [Cert.KernelIdeal.RegionValue.update5]
  have e0 : V9 m ρ c main_v73 = _ := agg3_at9 m ρ c
  have e1 : V9 m ρ c main_v61 = _ := lin3_at9 m ρ c
  have e2 : V9 m ρ c main_v74 = _ := selfcol3_at9 m ρ c
  have e3 : V9 m ρ c main_v75 = _ := biasrow3_at9 m ρ c
  rw [e0, e1, e2, e3]
  exact (Cert.ReferenceIdeal.Layer.update_eq_hostUpdate1 _ _ _ _ _ _).trans rfl

/-- The kernel program's result buffer at the end of @main is the reference's result, as a function of the arguments. -/
theorem result_at11 : W11 m ρ c (Proc.devRef .tc main_v78)
    = Cert.ReferenceIdeal.Read.val_main_v109 (F := Ideal) (arg0 m c) (arg1 m c) (arg3 m c) (arg4 m c) (arg5 m c) (arg6 m c)
        (arg7 m c) (arg8 m c) := by
  show StableHlo.after hostOps6 (W10 m ρ c) (Proc.devRef .tc main_v78) = _
  after_results_simp
  rw [act3_at10 m ρ c]
  rfl

end Cert.KernelIdeal.Fold

end
-- ==== Proof.lean ====
/-
  A three-layer graph convolution over a fixed edge list. Each layer maps the node features h to
  logistic (agg + s · (h·W) + b), where h·W is the layer's linear map, agg sums over the edges into each destination
  node the source node's row of h·W scaled by the edge's normalisation coefficient, s is the node's self-loop
  coefficient and b the bias; the result is the third layer's output plus a small constant.

  The kernel program computes h·W and the final logistic combination in Pallas kernels, tile by tile over the nodes, and
  leaves the gather, the scaling and the scatter-add over the edges to the host; the reference does everything on the
  host. At the ideal instance both are the same function of the arguments on all extended reals, finite or not:
    * a kernel's matrix product into a zero accumulator (its operands' change of float format being the identity) and
      the host's matrix product are, entry by entry, the same sum over the contracted axis;
    * the kernel's one logistic operation is by definition 1 / (1 + exp (-x)), which is how the host spells it;
    * the reference divides the last pre-activation by one, which is the identity;
    * every operation over the edges is the same operation on both sides, applied to equal values.
  So no law that needs finiteness is used, and the precondition is never opened.

  The three frames: the two kernel programs' are their generated frames; the reference's is its generated run with the
  result dropped. The idealization rewrote nothing, so `preserves` is trivial. For `algebraic`, the kernel program's run
  names its result buffer at the last boundary's contents (Proof/KRun.lean), those contents are the reference's result as
  a function of the arguments (Proof/KLayer3.lean, over Proof/KEntry.lean, KLayer1.lean, KLayer2.lean, the six regions'
  values and the reference-side layer lemmas), and the reference's run ends at that function of its own arguments, which
  agree with the kernel program's.
-/
import proofs.«170177_j25752623907304_1_alg».proof.Defs
import proofs.«170177_j25752623907304_1_alg».proof.Proof.Gen.Kernel
import proofs.«170177_j25752623907304_1_alg».proof.Proof.Gen.Kernel.Skeleton
import proofs.«170177_j25752623907304_1_alg».proof.Proof.Gen.Kernel.Launch
import proofs.«170177_j25752623907304_1_alg».proof.Proof.Gen.Kernel.Points
import proofs.«170177_j25752623907304_1_alg».proof.Proof.Gen.Kernel.Frame
import proofs.«170177_j25752623907304_1_alg».proof.Proof.Gen.KernelIdeal
import proofs.«170177_j25752623907304_1_alg».proof.Proof.Gen.KernelIdeal.Skeleton
import proofs.«170177_j25752623907304_1_alg».proof.Proof.Gen.KernelIdeal.Launch
import proofs.«170177_j25752623907304_1_alg».proof.Proof.Gen.KernelIdeal.Points
import proofs.«170177_j25752623907304_1_alg».proof.Proof.Gen.KernelIdeal.Frame
import proofs.«170177_j25752623907304_1_alg».proof.Proof.Gen.ReferenceIdeal
import proofs.«170177_j25752623907304_1_alg».proof.Proof.Gen.ReferenceIdeal.Run
import proofs.«170177_j25752623907304_1_alg».proof.Proof.Gen.ReferenceIdeal.Read
import proofs.«170177_j25752623907304_1_alg».proof.Proof.Gen.Pre_finite_inputs
import proofs.«170177_j25752623907304_1_alg».proof.Proof.KRun
import proofs.«170177_j25752623907304_1_alg».proof.Proof.KLayer3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result function of the arguments: the kernel program by the values of its
    six regions threaded through its host stretches, the reference by its own run; the arguments agree. -/
theorem algebraic : Cert.algebraic_KernelIdeal_ReferenceIdeal := by
  intro m ρ m' ρ' _ hagree
  refine ⟨fun c => Cert.KernelIdeal.Gen.W11 m ρ c (Proc.devRef .tc Cert.KernelIdeal.main_v78),
    Cert.KernelIdeal.GenRun.run_main m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v109_eq m' c).trans ?_
  refine Eq.trans ?_ (Cert.KernelIdeal.Fold.result_at11 m ρ c).symm
  obtain ⟨h0, h1, -, h3, h4, h5, h6, h7, h8⟩ := hagree c
  rw [h0, h1, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
